-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg7 : IVec S1600000 32) (main_v33 : IVec S_ 1) : IVec S_ 1 :=
  let main_c_12 : IVec S_ 32 := constantI S_ 32 4294867296#32
  let main_v34 : IVec S1600000 32 := broadcastInDim S1600000 ![] bcast_S_S1600000 main_c_12
  let main_v35 : IVec S1600000 1 := cmpi .sge main_arg7 main_v34
  let main_c_13 : IVec S_ 32 := constantI S_ 32 100000#32
  let main_v36 : IVec S1600000 32 := broadcastInDim S1600000 ![] bcast_S_S1600000 main_c_13
  let main_v37 : IVec S1600000 1 := cmpi .slt main_arg7 main_v36
  let main_v38 : IVec S1600000 1 := andi main_v35 main_v37
  let main_c_14 : IVec S_ 1 := constantI S_ 1 1#1
  let main_v39 : IVec S_ 1 := (fun x v => Host.reduce IntOp.andi x v reducesTo_S1600000_S_d0 h_S_) main_v38 main_c_14
  let main_v40 : IVec S_ 1 := andi main_v33 main_v39
  main_v40

def fn_part1 {F : FTy → Type} [FloatOps F] (main_arg4 : FVec F S64 .f32) (main_arg5 : FVec F S64x64 .f32) (main_arg6 : FVec F S64 .f32) (main_arg7 : IVec S1600000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S128x64 .f32) (main_arg2 : FVec F S64 .f32) (main_arg3 : FVec F S64x64 .f32) (main_arg4 : FVec F S64 .f32) (main_arg5 : FVec F S64x64 .f32) (main_arg6 : FVec F S64 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S2000x128 : Shape := ⟨2, ![2000, 128]⟩
abbrev S2000x1 : Shape := ⟨2, ![2000, 1]⟩
abbrev S2000x64 : Shape := ⟨2, ![2000, 64]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩

abbrev nBuf : Space → Nat
  | .hbm => 131
  | .vmem => 42
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S1600000, .i32⟩
  | 8 => ⟨S1600000, .i32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .i1⟩
  | 32 => ⟨S_, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x1, .f32⟩
  | 41 => ⟨S100000x64, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1, .i32⟩
  | 51 => ⟨S_, .i32⟩
  | 52 => ⟨S1600000x1, .i32⟩
  | 53 => ⟨S1600000x1, .i1⟩
  | 54 => ⟨S1x1, .i32⟩
  | 55 => ⟨S1600000x1, .i32⟩
  | 56 => ⟨S1600000x1, .i1⟩
  | 57 => ⟨S1600000x1, .i1⟩
  | 58 => ⟨S_, .i1⟩
  | 59 => ⟨S1600000, .i1⟩
  | 60 => ⟨S1600000x64, .f32⟩
  | 61 => ⟨S1600000x64, .i1⟩
  | 62 => ⟨S_, .f32⟩
  | 63 => ⟨S1600000x64, .f32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S1x64, .f32⟩
  | 70 => ⟨S100000x64, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1, .i32⟩
  | 81 => ⟨S_, .i32⟩
  | 82 => ⟨S1600000x1, .i32⟩
  | 83 => ⟨S1600000x1, .i1⟩
  | 84 => ⟨S1x1, .i32⟩
  | 85 => ⟨S1600000x1, .i32⟩
  | 86 => ⟨S1600000x1, .i1⟩
  | 87 => ⟨S1600000x1, .i1⟩
  | 88 => ⟨S_, .i1⟩
  | 89 => ⟨S1600000, .i1⟩
  | 90 => ⟨S1600000x64, .f32⟩
  | 91 => ⟨S1600000x64, .i1⟩
  | 92 => ⟨S_, .f32⟩
  | 93 => ⟨S1600000x64, .f32⟩
  | 94 => ⟨S1600000x64, .f32⟩
  | 95 => ⟨S_, .f32⟩
  | 96 => ⟨S100000x64, .f32⟩
  | 97 => ⟨S1600000x1, .i32⟩
  | 98 => ⟨S100000x64, .f32⟩
  | 99 => ⟨S1x64, .f32⟩
  | 100 => ⟨S100000x64, .f32⟩
  | 101 => ⟨S100000x64, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1, .i32⟩
  | 111 => ⟨S_, .i32⟩
  | 112 => ⟨S1600000x1, .i32⟩
  | 113 => ⟨S1600000x1, .i1⟩
  | 114 => ⟨S1x1, .i32⟩
  | 115 => ⟨S1600000x1, .i32⟩
  | 116 => ⟨S1600000x1, .i1⟩
  | 117 => ⟨S1600000x1, .i1⟩
  | 118 => ⟨S_, .i1⟩
  | 119 => ⟨S1600000, .i1⟩
  | 120 => ⟨S1600000x64, .f32⟩
  | 121 => ⟨S1600000x64, .i1⟩
  | 122 => ⟨S_, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x128, .f32⟩

abbrev hbmTy0_1 (i : Nat) : BufTy := match i % 128 with
  | 0 => ⟨S100000x64, .f32⟩
  | 1 => ⟨S1x64, .f32⟩
  | 2 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S64x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x1, .f32⟩
  | .local _ .vmem, ⟨31, _⟩ => ⟨S2000x1, .f32⟩
  | .local _ .vmem, ⟨32, _⟩ => ⟨S64x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x1, .f32⟩
  | .local _ .vmem, ⟨38, _⟩ => ⟨S2000x1, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v14 : Ref sig .tc := ⟨.hbm, 35, rfl⟩
abbrev main_cst_7 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_call2_cst : Ref sig .tc := ⟨.hbm, 62, rfl⟩
abbrev main_call2_v15 : Ref sig .tc := ⟨.hbm, 63, rfl⟩
abbrev main_v20 : Ref sig .tc := ⟨.hbm, 64, rfl⟩
abbrev main_cst_8 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_call3_cst : Ref sig .tc := ⟨.hbm, 92, rfl⟩
abbrev main_call3_v15 : Ref sig .tc := ⟨.hbm, 93, rfl⟩
abbrev main_v27 : Ref sig .tc := ⟨.hbm, 94, rfl⟩
abbrev main_cst_9 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_call4_c : Ref sig .tc := ⟨.hbm, 102, rfl⟩
abbrev main_call4_v0 : Ref sig .tc := ⟨.hbm, 103, rfl⟩
abbrev main_call4_v1 : Ref sig .tc := ⟨.hbm, 104, rfl⟩
abbrev main_call4_c_0 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_c_1 : Ref sig .tc := ⟨.hbm, 110, rfl⟩
abbrev main_call4_c_2 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_3 : Ref sig .tc := ⟨.hbm, 118, rfl⟩
abbrev main_call4_v12 : Ref sig .tc := ⟨.hbm, 119, rfl⟩
abbrev main_call4_v13 : Ref sig .tc := ⟨.hbm, 120, rfl⟩
abbrev main_call4_v14 : Ref sig .tc := ⟨.hbm, 121, rfl⟩
abbrev main_call4_cst : Ref sig .tc := ⟨.hbm, 122, rfl⟩
abbrev main_call4_v15 : Ref sig .tc := ⟨.hbm, 123, rfl⟩
abbrev main_v34 : Ref sig .tc := ⟨.hbm, 124, rfl⟩
abbrev main_cst_10 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S100000x64.size a
  hwx4_3 : ∀ i : grid4.Coords, EltTy.bits .f32 = 32 ∨ (Rect.block (s := S100000x64) S2000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S100000x64.size a
  hwx5_3 : ∀ i : grid5.Coords, EltTy.bits .f32 = 32 ∨ (Rect.block (s := S100000x64) S2000x64.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v30) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v32) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v33) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v37) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v38) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v39) S2000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x1, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S100000x1, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x1, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .i32⟩
  | .hbm, ⟨96, _⟩ => ⟨S1600000, .i32⟩
  | .hbm, ⟨97, _⟩ => ⟨S1600000, .i1⟩
  | .hbm, ⟨98, _⟩ => ⟨S_, .i32⟩
  | .hbm, ⟨99, _⟩ => ⟨S1600000, .i32⟩
  | .hbm, ⟨100, _⟩ => ⟨S1600000, .i32⟩
  | .hbm, ⟨101, _⟩ => ⟨S1600000, .i32⟩
  | .hbm, ⟨102, _⟩ => ⟨S1600000x1, .i32⟩
  | .hbm, ⟨103, _⟩ => ⟨S1600000x64, .f32⟩
  | .hbm, ⟨104, _⟩ => ⟨S_, .f32⟩
  | .hbm, ⟨105, _⟩ => ⟨S100000x64, .f32⟩
  | .hbm, ⟨106, _⟩ => ⟨S1600000x1, .i32⟩
  | .hbm, ⟨107, _⟩ => ⟨S100000x64, .f32⟩
  | .hbm, ⟨108, _⟩ => ⟨S100000x1, .f32⟩
  | .hbm, ⟨109, _⟩ => ⟨S100000x64, .f32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | .hbm, ⟨114, _⟩ => ⟨S_, .f32⟩
  | .hbm, ⟨115, _⟩ => ⟨S100000x64, .f32⟩
  | .hbm, ⟨116, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v14 : Ref sig .tc := ⟨.hbm, 35, rfl⟩
abbrev main_cst_7 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_8 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_9 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_cst : Ref sig .tc := ⟨.hbm, 62, rfl⟩
abbrev main_call2_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_10 : Ref sig .tc := ⟨.hbm, 69, rfl⟩
abbrev main_v42 : Ref sig .tc := ⟨.hbm, 70, rfl⟩
abbrev main_v43 : Ref sig .tc := ⟨.hbm, 71, rfl⟩
abbrev main_c_11 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call3_cst : Ref sig .tc := ⟨.hbm, 88, rfl⟩
abbrev main_call3_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_13 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_call4_cst : Ref sig .tc := ⟨.hbm, 114, rfl⟩
abbrev main_call4_v0 : Ref sig .tc := ⟨.hbm, 115, rfl⟩
abbrev main_v79 : Ref sig .tc := ⟨.hbm, 116, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The layer of the graph convolution, as whole-array functions in the reference's own operations.

  One layer maps node features `h` to `relu (D_in^{-1/2} · A · (D_out^{-1/2} · h) · W + b)`: every row of `h` is
  scaled by its node's out-degree norm, projected by the weights (`proj128` for the 128-wide input layer, `proj64` for
  the two 64-wide ones), the projected rows are gathered along the edges' sources and summed into the edges'
  destinations (`gatherScatter`), and each destination row is scaled by its in-degree norm, shifted by the bias row
  and clipped at zero (`postRow`). `normCol` is the column of degree norms: the number of edges with the given
  endpoint, replaced by one where it is zero, to the power -1/2.
-/
import proofs.«401619_j14130442403926_1_alg».proof.ReferenceIdeal
import proofs.«401619_j14130442403926_1_alg».proof.Proof.Gen.ReferenceIdeal
import Idealize.ShloMosaic.PureOps.Ideal

noncomputable section

namespace Cert.Spec

open Idealize.ShloMosaic Cert.ReferenceIdeal Cert.ReferenceIdeal.Gen

variable {F : FTy → Type} [FloatOps F]

/-- The rows of `h` scaled by the column `nsc`, then multiplied by the 128 × 64 weights. -/
def proj128 (h : (⟨S100000x128, .f32⟩ : BufTy).Contents (Elt F)) (nsc : (⟨S100000x1, .f32⟩ : BufTy).Contents (Elt F))
    (w : (⟨S128x64, .f32⟩ : BufTy).Contents (Elt F)) : (⟨S100000x64, .f32⟩ : BufTy).Contents (Elt F) :=
  Host.dotGeneral dot_S100000x128_S128x64_S100000x64_1_0_0_1_n_n none
    (mulf h (broadcastInDim S100000x128 ![0, 1] bcast_S100000x1_S100000x128_0_1 nsc)) w

/-- The rows of `h` scaled by the column `nsc`, then multiplied by the 64 × 64 weights. -/
def proj64 (h : (⟨S100000x64, .f32⟩ : BufTy).Contents (Elt F)) (nsc : (⟨S100000x1, .f32⟩ : BufTy).Contents (Elt F))
    (w : (⟨S64x64, .f32⟩ : BufTy).Contents (Elt F)) : (⟨S100000x64, .f32⟩ : BufTy).Contents (Elt F) :=
  Host.dotGeneral dot_S100000x64_S64x64_S100000x64_1_0_0_1_n_n none
    (mulf h (broadcastInDim S100000x64 ![0, 1] bcast_S100000x1_S100000x64_0_1 nsc)) w

/-- Row `e` of the gathered array is row `srcIdx e` of `p`; the gathered rows are summed into the rows `dstIdx e`
    of an array of zeros. -/
def gatherScatter (p : (⟨S100000x64, .f32⟩ : BufTy).Contents (Elt F)) (srcIdx dstIdx : (⟨S1600000x1, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32)) dstIdx
    (Host.gather gather_S100000x64_S1600000x1_S1600000x64_1_0_n_n_0_1_164 p srcIdx)

/-- Each row of `agg` scaled by its entry of the column `ndc`, plus the bias row, clipped at zero. -/
def postRow (agg : (⟨S100000x64, .f32⟩ : BufTy).Contents (Elt F)) (ndc : (⟨S100000x1, .f32⟩ : BufTy).Contents (Elt F))
    (brow : (⟨S1x64, .f32⟩ : BufTy).Contents (Elt F)) : (⟨S100000x64, .f32⟩ : BufTy).Contents (Elt F) :=
  maximumf (addf (mulf agg (broadcastInDim S100000x64 ![0, 1] bcast_S100000x1_S100000x64_0_1 ndc))
      (broadcastInDim S100000x64 ![0, 1] bcast_S1x64_S100000x64_0_1 brow))
    (broadcastInDim S100000x64 ![] bcast_S_S100000x64 (constant S_ .f32 0x00000000#32))

/-- The bias vector as a one-row matrix. -/
def biasRow (b : (⟨S64, .f32⟩ : BufTy).Contents (Elt F)) : (⟨S1x64, .f32⟩ : BufTy).Contents (Elt F) :=
  broadcastInDim S1x64 ![1] bcast_S64_S1x64_1 b

/-- The number of edges whose endpoint (as listed in `x`) is each node. -/
def degree (x : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 x)
    (broadcastInDim S1600000 ![] bcast_S_S1600000 (constant S_ .f32 0x3F800000#32))

/-- The degree norms as a column: the degree, one where it is zero, to the power -1/2. -/
def normCol (x : (⟨S1600000, .i32⟩ : BufTy).Contents (Elt F)) : (⟨S100000x1, .f32⟩ : BufTy).Contents (Elt F) :=
  broadcastInDim S100000x1 ![0] bcast_S100000_S100000x1_0
    (Host.powf (select (cmpf .ogt (degree x) (broadcastInDim S100000 ![] bcast_S_S100000 (constant S_ .f32 0x00000000#32)))
        (degree x) (broadcastInDim S100000 ![] bcast_S_S100000 (id (constant S_ .f32 0x3F800000#32))))
      (broadcastInDim S100000 ![] bcast_S_S100000 (constant S_ .f32 0xBF000000#32)))

/-- The edges' source nodes as gather start indices: a negative entry counts from the end. -/
def srcIndex (x : (⟨S1600000, .i32⟩ : BufTy).Contents (Elt F)) : (⟨S1600000x1, .i32⟩ : BufTy).Contents (Elt F) :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- The edges' destination nodes as scatter indices. -/
def dstIndex (x : (⟨S1600000, .i32⟩ : BufTy).Contents (Elt F)) : (⟨S1600000x1, .i32⟩ : BufTy).Contents (Elt F) :=
  broadcastInDim S1600000x1 ![0] bcast_S1600000_S1600000x1_0 x

/-- The three layers, from the features, the weights and biases, and the edge lists. -/
def network (x0 : (⟨S100000x128, .f32⟩ : BufTy).Contents (Elt F)) (w0 : (⟨S128x64, .f32⟩ : BufTy).Contents (Elt F))
    (b0 : (⟨S64, .f32⟩ : BufTy).Contents (Elt F)) (w1 : (⟨S64x64, .f32⟩ : BufTy).Contents (Elt F))
    (b1 : (⟨S64, .f32⟩ : BufTy).Contents (Elt F)) (w2 : (⟨S64x64, .f32⟩ : BufTy).Contents (Elt F))
    (b2 : (⟨S64, .f32⟩ : BufTy).Contents (Elt F)) (src dst : (⟨S1600000, .i32⟩ : BufTy).Contents (Elt F)) :
    (⟨S100000x64, .f32⟩ : BufTy).Contents (Elt F) :=
  postRow (gatherScatter (proj64
    (postRow (gatherScatter (proj64
      (postRow (gatherScatter (proj128 x0 (normCol src) w0) (srcIndex src) (dstIndex dst)) (normCol dst) (biasRow b0))
      (normCol src) w1) (srcIndex src) (dstIndex dst)) (normCol dst) (biasRow b1))
    (normCol src) w2) (srcIndex src) (dstIndex dst)) (normCol dst) (biasRow b2)

end Cert.Spec

end
-- ==== Proof.RefRes.lean ====
/-
  The reference's result is the three-layer network of its arguments: the composed term of its run, read as the
  layer functions (each layer: scale by the out-degree norms and project, gather along the edges' sources, sum into
  the edges' destinations, scale by the in-degree norms, add the bias, clip at zero).
-/
import proofs.«401619_j14130442403926_1_alg».proof.Proof.RefRun
import proofs.«401619_j14130442403926_1_alg».proof.Proof.Spec

set_option maxRecDepth 16384

noncomputable section

namespace Cert.ReferenceIdeal.RefRes

open Idealize.ShloMosaic Idealize.ShloMosaic.TcCoe Idealize.SL.Sem Cert.ReferenceIdeal Cert.ReferenceIdeal.Gen

variable {F : FTy → Type} [FloatOps F]

/-- The run's result term is `Spec.network` of the argument arrays. -/
theorem res_eq (m : (ℓ : Loc nD τ sig) → Buf (Elt F) ℓ) (c : Dev nD) :
    Cert.ReferenceIdeal.RunCopy.res_main_v79 (F := F) m c
      = Cert.Spec.network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.RunCopy.res_main_v79
  rfl

end Cert.ReferenceIdeal.RefRes

end
-- ==== Proof.ChainKeep.lean ====
/-
  Which buffers a step of @main leaves alone.

  @main is a chain of boundaries W0 (the launch), …, W17 (the return): between two boundaries lies either a stretch of
  host operations or one region. A host stretch changes only the buffers its operations write; a region changes only
  its output array (an input window's array ends as the region found it, any other buffer is not touched). So an
  argument array, which nothing writes, holds its launch contents at every boundary, and the two degree-norm columns,
  written once before the first region, hold at every later boundary what they held there.
-/
import proofs.«401619_j14130442403926_1_alg».proof.Proof.Gen.KernelIdeal.Frame
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- A stretch of host operations leaves alone every buffer none of them writes. -/
theorem host_keep (ops : List (HloOp τ sig (Elt F))) (W : Valuation τ sig (Elt F)) (b : Ref sig .tc)
    (h : ∀ op ∈ ops, Proc.devRef .tc b ∉ op.writes) :
    StableHlo.after ops W (Proc.devRef .tc b) = W (Proc.devRef .tc b) :=
  StableHlo.after_of_forall_not_mem (b := Proc.devRef .tc b) _ _ h

/-- Decides, operation by operation, that a literal buffer is written by none of a literal stretch. -/
macro "not_written" : tactic =>
  `(tactic| (refine List.forall_iff_forall_mem.mp ?_
             simp only [hostOps0, hostOps0_1, hostOps0_2, hostOps0_3, hostOps0_4, hostOps1, hostOps1_1, hostOps3, hostOps3_1, hostOps5, hostOps5_1, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Region 0 leaves alone every buffer but its output array: an input window's array ends as it was found, and a
    buffer that is none of the region's arrays is not touched. -/
theorem keep0 (c : Dev nD) (b : Ref sig .tc) (hb : b ≠ main_v19) :
    W6 m ρ c (Proc.devRef .tc b) = W5 m ρ c (Proc.devRef .tc b) := by
  by_cases h0 : b = main_arg0
  · subst h0; exact (W6_arr m ρ c 0).trans (((dat0 (V5 m ρ) c).arrAt_in 0 rfl _).trans (A_eq0 (V5 m ρ) c 0))
  by_cases h1 : b = main_v17
  · subst h1; exact (W6_arr m ρ c 1).trans (((dat0 (V5 m ρ) c).arrAt_in 1 rfl _).trans (A_eq0 (V5 m ρ) c 1))
  by_cases h2 : b = main_arg1
  · subst h2; exact (W6_arr m ρ c 2).trans (((dat0 (V5 m ρ) c).arrAt_in 2 rfl _).trans (A_eq0 (V5 m ρ) c 2))
  exact W6_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Region 1 leaves alone every buffer but its output array: an input window's array ends as it was found, and a
    buffer that is none of the region's arrays is not touched. -/
theorem keep1 (c : Dev nD) (b : Ref sig .tc) (hb : b ≠ main_v25) :
    W9 m ρ c (Proc.devRef .tc b) = W8 m ρ c (Proc.devRef .tc b) := by
  by_cases h0 : b = main_v23
  · subst h0; exact (W9_arr m ρ c 0).trans (((dat1 (V8 m ρ) c).arrAt_in 0 rfl _).trans (A_eq1 (V8 m ρ) c 0))
  by_cases h1 : b = main_v18
  · subst h1; exact (W9_arr m ρ c 1).trans (((dat1 (V8 m ρ) c).arrAt_in 1 rfl _).trans (A_eq1 (V8 m ρ) c 1))
  by_cases h2 : b = main_v24
  · subst h2; exact (W9_arr m ρ c 2).trans (((dat1 (V8 m ρ) c).arrAt_in 2 rfl _).trans (A_eq1 (V8 m ρ) c 2))
  exact W9_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Region 2 leaves alone every buffer but its output array: an input window's array ends as it was found, and a
    buffer that is none of the region's arrays is not touched. -/
theorem keep2 (c : Dev nD) (b : Ref sig .tc) (hb : b ≠ main_v26) :
    W10 m ρ c (Proc.devRef .tc b) = W9 m ρ c (Proc.devRef .tc b) := by
  by_cases h0 : b = main_v25
  · subst h0; exact (W10_arr m ρ c 0).trans (((dat2 (V9 m ρ) c).arrAt_in 0 rfl _).trans (A_eq2 (V9 m ρ) c 0))
  by_cases h1 : b = main_v17
  · subst h1; exact (W10_arr m ρ c 1).trans (((dat2 (V9 m ρ) c).arrAt_in 1 rfl _).trans (A_eq2 (V9 m ρ) c 1))
  by_cases h2 : b = main_arg3
  · subst h2; exact (W10_arr m ρ c 2).trans (((dat2 (V9 m ρ) c).arrAt_in 2 rfl _).trans (A_eq2 (V9 m ρ) c 2))
  exact W10_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Region 3 leaves alone every buffer but its output array: an input window's array ends as it was found, and a
    buffer that is none of the region's arrays is not touched. -/
theorem keep3 (c : Dev nD) (b : Ref sig .tc) (hb : b ≠ main_v32) :
    W13 m ρ c (Proc.devRef .tc b) = W12 m ρ c (Proc.devRef .tc b) := by
  by_cases h0 : b = main_v30
  · subst h0; exact (W13_arr m ρ c 0).trans (((dat3 (V12 m ρ) c).arrAt_in 0 rfl _).trans (A_eq3 (V12 m ρ) c 0))
  by_cases h1 : b = main_v18
  · subst h1; exact (W13_arr m ρ c 1).trans (((dat3 (V12 m ρ) c).arrAt_in 1 rfl _).trans (A_eq3 (V12 m ρ) c 1))
  by_cases h2 : b = main_v31
  · subst h2; exact (W13_arr m ρ c 2).trans (((dat3 (V12 m ρ) c).arrAt_in 2 rfl _).trans (A_eq3 (V12 m ρ) c 2))
  exact W13_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Region 4 leaves alone every buffer but its output array: an input window's array ends as it was found, and a
    buffer that is none of the region's arrays is not touched. -/
theorem keep4 (c : Dev nD) (b : Ref sig .tc) (hb : b ≠ main_v33) :
    W14 m ρ c (Proc.devRef .tc b) = W13 m ρ c (Proc.devRef .tc b) := by
  by_cases h0 : b = main_v32
  · subst h0; exact (W14_arr m ρ c 0).trans (((dat4 (V13 m ρ) c).arrAt_in 0 rfl _).trans (A_eq4 (V13 m ρ) c 0))
  by_cases h1 : b = main_v17
  · subst h1; exact (W14_arr m ρ c 1).trans (((dat4 (V13 m ρ) c).arrAt_in 1 rfl _).trans (A_eq4 (V13 m ρ) c 1))
  by_cases h2 : b = main_arg5
  · subst h2; exact (W14_arr m ρ c 2).trans (((dat4 (V13 m ρ) c).arrAt_in 2 rfl _).trans (A_eq4 (V13 m ρ) c 2))
  exact W14_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-- Region 5 leaves alone every buffer but its output array: an input window's array ends as it was found, and a
    buffer that is none of the region's arrays is not touched. -/
theorem keep5 (c : Dev nD) (b : Ref sig .tc) (hb : b ≠ main_v39) :
    W17 m ρ c (Proc.devRef .tc b) = W16 m ρ c (Proc.devRef .tc b) := by
  by_cases h0 : b = main_v37
  · subst h0; exact (W17_arr m ρ c 0).trans (((dat5 (V16 m ρ) c).arrAt_in 0 rfl _).trans (A_eq5 (V16 m ρ) c 0))
  by_cases h1 : b = main_v18
  · subst h1; exact (W17_arr m ρ c 1).trans (((dat5 (V16 m ρ) c).arrAt_in 1 rfl _).trans (A_eq5 (V16 m ρ) c 1))
  by_cases h2 : b = main_v38
  · subst h2; exact (W17_arr m ρ c 2).trans (((dat5 (V16 m ρ) c).arrAt_in 2 rfl _).trans (A_eq5 (V16 m ρ) c 2))
  exact W17_of_ne m ρ c b (fun w => match w with
    | ⟨0, _⟩ => fun e => h0 e.symm
    | ⟨1, _⟩ => fun e => h1 e.symm
    | ⟨2, _⟩ => fun e => h2 e.symm
    | ⟨3, _⟩ => fun e => hb e.symm)

/-! ## A buffer written by nothing after the first region is entered -/

/-- No host operation after the first region's entry writes `b`, and `b` is no region's output array. -/
structure KeptLater (F : FTy → Type) [FloatOps F] (b : Ref sig .tc) : Prop where
  h1 : ∀ op ∈ (hostOps1 : List (HloOp τ sig (Elt F))), Proc.devRef .tc b ∉ op.writes
  h1_1 : ∀ op ∈ (hostOps1_1 : List (HloOp τ sig (Elt F))), Proc.devRef .tc b ∉ op.writes
  h3 : ∀ op ∈ (hostOps3 : List (HloOp τ sig (Elt F))), Proc.devRef .tc b ∉ op.writes
  h3_1 : ∀ op ∈ (hostOps3_1 : List (HloOp τ sig (Elt F))), Proc.devRef .tc b ∉ op.writes
  h5 : ∀ op ∈ (hostOps5 : List (HloOp τ sig (Elt F))), Proc.devRef .tc b ∉ op.writes
  h5_1 : ∀ op ∈ (hostOps5_1 : List (HloOp τ sig (Elt F))), Proc.devRef .tc b ∉ op.writes
  r0 : b ≠ main_v19
  r1 : b ≠ main_v25
  r2 : b ≠ main_v26
  r3 : b ≠ main_v32
  r4 : b ≠ main_v33
  r5 : b ≠ main_v39

namespace KeptLater
variable {m ρ} {b : Ref sig .tc} (h : KeptLater F b) (c : Dev nD)
include h
theorem at6 : W6 m ρ c (Proc.devRef .tc b) = W5 m ρ c (Proc.devRef .tc b) := keep0 m ρ c b h.r0
theorem at7 : W7 m ρ c (Proc.devRef .tc b) = W5 m ρ c (Proc.devRef .tc b) := (host_keep hostOps1 _ b h.h1).trans (h.at6 c)
theorem at8 : W8 m ρ c (Proc.devRef .tc b) = W5 m ρ c (Proc.devRef .tc b) := (host_keep hostOps1_1 _ b h.h1_1).trans (h.at7 c)
theorem at9 : W9 m ρ c (Proc.devRef .tc b) = W5 m ρ c (Proc.devRef .tc b) := (keep1 m ρ c b h.r1).trans (h.at8 c)
theorem at10 : W10 m ρ c (Proc.devRef .tc b) = W5 m ρ c (Proc.devRef .tc b) := (keep2 m ρ c b h.r2).trans (h.at9 c)
theorem at11 : W11 m ρ c (Proc.devRef .tc b) = W5 m ρ c (Proc.devRef .tc b) := (host_keep hostOps3 _ b h.h3).trans (h.at10 c)
theorem at12 : W12 m ρ c (Proc.devRef .tc b) = W5 m ρ c (Proc.devRef .tc b) := (host_keep hostOps3_1 _ b h.h3_1).trans (h.at11 c)
theorem at13 : W13 m ρ c (Proc.devRef .tc b) = W5 m ρ c (Proc.devRef .tc b) := (keep3 m ρ c b h.r3).trans (h.at12 c)
theorem at14 : W14 m ρ c (Proc.devRef .tc b) = W5 m ρ c (Proc.devRef .tc b) := (keep4 m ρ c b h.r4).trans (h.at13 c)
theorem at15 : W15 m ρ c (Proc.devRef .tc b) = W5 m ρ c (Proc.devRef .tc b) := (host_keep hostOps5 _ b h.h5).trans (h.at14 c)
theorem at16 : W16 m ρ c (Proc.devRef .tc b) = W5 m ρ c (Proc.devRef .tc b) := (host_keep hostOps5_1 _ b h.h5_1).trans (h.at15 c)
end KeptLater

/-- The out-degree norm column is written only before the first region. -/
theorem kept_v17 : KeptLater F main_v17 :=
  ⟨by not_written, by not_written, by not_written, by not_written, by not_written, by not_written,
   by decide, by decide, by decide, by decide, by decide, by decide⟩
/-- The in-degree norm column is written only before the first region. -/
theorem kept_v18 : KeptLater F main_v18 :=
  ⟨by not_written, by not_written, by not_written, by not_written, by not_written, by not_written,
   by decide, by decide, by decide, by decide, by decide, by decide⟩

/-! ## A buffer nothing writes: an argument array -/

/-- No host operation before the first region writes `b` either: nothing writes it at all. -/
structure Untouched (F : FTy → Type) [FloatOps F] (b : Ref sig .tc) : Prop extends KeptLater F b where
  h0 : ∀ op ∈ (hostOps0 : List (HloOp τ sig (Elt F))), Proc.devRef .tc b ∉ op.writes
  h0_1 : ∀ op ∈ (hostOps0_1 : List (HloOp τ sig (Elt F))), Proc.devRef .tc b ∉ op.writes
  h0_2 : ∀ op ∈ (hostOps0_2 : List (HloOp τ sig (Elt F))), Proc.devRef .tc b ∉ op.writes
  h0_3 : ∀ op ∈ (hostOps0_3 : List (HloOp τ sig (Elt F))), Proc.devRef .tc b ∉ op.writes
  h0_4 : ∀ op ∈ (hostOps0_4 : List (HloOp τ sig (Elt F))), Proc.devRef .tc b ∉ op.writes

namespace Untouched
variable {m ρ} {b : Ref sig .tc} (h : Untouched F b) (c : Dev nD)
include h
/-- At the first region's entry an argument array holds its launch contents. -/
theorem at5 : W5 m ρ c (Proc.devRef .tc b) = m ((c : Thread nD τ).loc b) :=
  (host_keep hostOps0_4 _ b h.h0_4).trans <| (host_keep hostOps0_3 _ b h.h0_3).trans <|
  (host_keep hostOps0_2 _ b h.h0_2).trans <| (host_keep hostOps0_1 _ b h.h0_1).trans <|
  (host_keep hostOps0 _ b h.h0).trans rfl
theorem at6 : W6 m ρ c (Proc.devRef .tc b) = m ((c : Thread nD τ).loc b) := (h.toKeptLater.at6 c).trans (h.at5 c)
theorem at7 : W7 m ρ c (Proc.devRef .tc b) = m ((c : Thread nD τ).loc b) := (h.toKeptLater.at7 c).trans (h.at5 c)
theorem at8 : W8 m ρ c (Proc.devRef .tc b) = m ((c : Thread nD τ).loc b) := (h.toKeptLater.at8 c).trans (h.at5 c)
theorem at9 : W9 m ρ c (Proc.devRef .tc b) = m ((c : Thread nD τ).loc b) := (h.toKeptLater.at9 c).trans (h.at5 c)
theorem at10 : W10 m ρ c (Proc.devRef .tc b) = m ((c : Thread nD τ).loc b) := (h.toKeptLater.at10 c).trans (h.at5 c)
theorem at11 : W11 m ρ c (Proc.devRef .tc b) = m ((c : Thread nD τ).loc b) := (h.toKeptLater.at11 c).trans (h.at5 c)
theorem at12 : W12 m ρ c (Proc.devRef .tc b) = m ((c : Thread nD τ).loc b) := (h.toKeptLater.at12 c).trans (h.at5 c)
theorem at13 : W13 m ρ c (Proc.devRef .tc b) = m ((c : Thread nD τ).loc b) := (h.toKeptLater.at13 c).trans (h.at5 c)
theorem at14 : W14 m ρ c (Proc.devRef .tc b) = m ((c : Thread nD τ).loc b) := (h.toKeptLater.at14 c).trans (h.at5 c)
theorem at15 : W15 m ρ c (Proc.devRef .tc b) = m ((c : Thread nD τ).loc b) := (h.toKeptLater.at15 c).trans (h.at5 c)
theorem at16 : W16 m ρ c (Proc.devRef .tc b) = m ((c : Thread nD τ).loc b) := (h.toKeptLater.at16 c).trans (h.at5 c)
end Untouched

theorem untouched_arg0 : Untouched F main_arg0 :=
  ⟨⟨by not_written, by not_written, by not_written, by not_written, by not_written, by not_written,
    by decide, by decide, by decide, by decide, by decide, by decide⟩,
   by not_written, by not_written, by not_written, by not_written, by not_written⟩
theorem untouched_arg1 : Untouched F main_arg1 :=
  ⟨⟨by not_written, by not_written, by not_written, by not_written, by not_written, by not_written,
    by decide, by decide, by decide, by decide, by decide, by decide⟩,
   by not_written, by not_written, by not_written, by not_written, by not_written⟩
theorem untouched_arg2 : Untouched F main_arg2 :=
  ⟨⟨by not_written, by not_written, by not_written, by not_written, by not_written, by not_written,
    by decide, by decide, by decide, by decide, by decide, by decide⟩,
   by not_written, by not_written, by not_written, by not_written, by not_written⟩
theorem untouched_arg3 : Untouched F main_arg3 :=
  ⟨⟨by not_written, by not_written, by not_written, by not_written, by not_written, by not_written,
    by decide, by decide, by decide, by decide, by decide, by decide⟩,
   by not_written, by not_written, by not_written, by not_written, by not_written⟩
theorem untouched_arg4 : Untouched F main_arg4 :=
  ⟨⟨by not_written, by not_written, by not_written, by not_written, by not_written, by not_written,
    by decide, by decide, by decide, by decide, by decide, by decide⟩,
   by not_written, by not_written, by not_written, by not_written, by not_written⟩
theorem untouched_arg5 : Untouched F main_arg5 :=
  ⟨⟨by not_written, by not_written, by not_written, by not_written, by not_written, by not_written,
    by decide, by decide, by decide, by decide, by decide, by decide⟩,
   by not_written, by not_written, by not_written, by not_written, by not_written⟩
theorem untouched_arg6 : Untouched F main_arg6 :=
  ⟨⟨by not_written, by not_written, by not_written, by not_written, by not_written, by not_written,
    by decide, by decide, by decide, by decide, by decide, by decide⟩,
   by not_written, by not_written, by not_written, by not_written, by not_written⟩
theorem untouched_arg7 : Untouched F main_arg7 :=
  ⟨⟨by not_written, by not_written, by not_written, by not_written, by not_written, by not_written,
    by decide, by decide, by decide, by decide, by decide, by decide⟩,
   by not_written, by not_written, by not_written, by not_written, by not_written⟩
theorem untouched_arg8 : Untouched F main_arg8 :=
  ⟨⟨by not_written, by not_written, by not_written, by not_written, by not_written, by not_written,
    by decide, by decide, by decide, by decide, by decide, by decide⟩,
   by not_written, by not_written, by not_written, by not_written, by not_written⟩

end Cert.KernelIdeal.Chain

end
-- ==== Proof.SpecIdx.lean ====
/-
  The pieces of a layer read at an index.

  A column broadcast to a matrix reads the column's entry of the same row; a row broadcast to a matrix reads the row's
  entry of the same column; the product of an N × K matrix with a K × 64 matrix reads, at (r, q), the sum over k of the
  entries (r, k) and (k, q). So the projection at (r, q) is the sum over k of `h (r, k) · nsc r · w (k, q)`, and the
  post-processing at (r, q) is `max (agg (r, q) · ndc r + brow q) 0`, the zero kept as the word the programs print.
-/
import proofs.«401619_j14130442403926_1_alg».proof.Proof.Spec
import Idealize.ShloMosaic.Lib.Pipeline.Value
import Idealize.ShloMosaic.Lib.ValueIdx
import Idealize.ShloMosaic.PureOps.Ideal.Laws

noncomputable section

namespace Cert.Spec

open Idealize.ShloMosaic Idealize.ShloMosaic.ValueIdx Cert.ReferenceIdeal Cert.ReferenceIdeal.Gen
open scoped BigOperators

/-! ## Broadcasts read at an index -/

/-- A column broadcast along 128 columns reads the column at the same row. -/
theorem colTo128_apply {α : Type} (y : S100000x1.Idx → α) (r : Fin 100000) (k : Fin 128) :
    broadcastInDim S100000x128 ![0, 1] bcast_S100000x1_S100000x128_0_1 y (ix2 r k) = y (ix2 r (0 : Fin 1)) :=
  broadcastInDim_apply _ bcast_S100000x1_S100000x128_0_1 y (ix2 r k) (ix2 r (0 : Fin 1)) (fun a => match a with
    | ⟨0, _⟩ => by show r.val = if (100000 : Nat) = 1 then 0 else r.val; rw [if_neg (by decide)]
    | ⟨1, _⟩ => by show (0 : Nat) = if (1 : Nat) = 1 then 0 else k.val; rw [if_pos rfl])

/-- A column broadcast along 64 columns reads the column at the same row. -/
theorem colTo64_apply {α : Type} (y : S100000x1.Idx → α) (r : Fin 100000) (q : Fin 64) :
    broadcastInDim S100000x64 ![0, 1] bcast_S100000x1_S100000x64_0_1 y (ix2 r q) = y (ix2 r (0 : Fin 1)) :=
  broadcastInDim_apply _ bcast_S100000x1_S100000x64_0_1 y (ix2 r q) (ix2 r (0 : Fin 1)) (fun a => match a with
    | ⟨0, _⟩ => by show r.val = if (100000 : Nat) = 1 then 0 else r.val; rw [if_neg (by decide)]
    | ⟨1, _⟩ => by show (0 : Nat) = if (1 : Nat) = 1 then 0 else q.val; rw [if_pos rfl])

/-- A row broadcast along 100000 rows reads the row at the same column. -/
theorem rowTo64_apply {α : Type} (y : S1x64.Idx → α) (r : Fin 100000) (q : Fin 64) :
    broadcastInDim S100000x64 ![0, 1] bcast_S1x64_S100000x64_0_1 y (ix2 r q) = y (ix2 (0 : Fin 1) q) :=
  broadcastInDim_apply _ bcast_S1x64_S100000x64_0_1 y (ix2 r q) (ix2 (0 : Fin 1) q) (fun a => match a with
    | ⟨0, _⟩ => by show (0 : Nat) = if (1 : Nat) = 1 then 0 else r.val; rw [if_pos rfl]
    | ⟨1, _⟩ => by show q.val = if (64 : Nat) = 1 then 0 else q.val; rw [if_neg (by decide)])

/-- A vector laid out as a one-row matrix reads the vector at the column. -/
theorem biasRow_apply {F : FTy → Type} [FloatOps F] (b : (⟨S64, .f32⟩ : BufTy).Contents (Elt F)) (q : Fin 64) :
    biasRow (F := F) b (ix2 (0 : Fin 1) q) = b (ix1 q) :=
  broadcastInDim_apply _ bcast_S64_S1x64_1 b (ix2 (0 : Fin 1) q) (ix1 q) (fun a => match a with
    | ⟨0, _⟩ => by show q.val = if (64 : Nat) = 1 then 0 else q.val; rw [if_neg (by decide)])

/-! ## The post-processing at an index -/

/-- `postRow` at (r, q): the aggregate's entry times the row's norm, plus the bias entry of the column, against zero. -/
theorem postRow_apply {F : FTy → Type} [FloatOps F] (agg : (⟨S100000x64, .f32⟩ : BufTy).Contents (Elt F))
    (ndc : (⟨S100000x1, .f32⟩ : BufTy).Contents (Elt F)) (brow : (⟨S1x64, .f32⟩ : BufTy).Contents (Elt F))
    (r : Fin 100000) (q : Fin 64) :
    postRow (F := F) agg ndc brow (ix2 r q)
      = FloatOps.maximumf (FloatOps.addf (FloatOps.mulf (agg (ix2 r q)) (ndc (ix2 r (0 : Fin 1)))) (brow (ix2 (0 : Fin 1) q)))
          (FloatOps.ofBits .f32 0x00000000#32) := by
  unfold postRow
  show FloatOps.maximumf (FloatOps.addf (FloatOps.mulf (agg (ix2 r q))
        (broadcastInDim S100000x64 ![0, 1] bcast_S100000x1_S100000x64_0_1 ndc (ix2 r q)))
      (broadcastInDim S100000x64 ![0, 1] bcast_S1x64_S100000x64_0_1 brow (ix2 r q))) (FloatOps.ofBits .f32 0x00000000#32) = _
  rw [colTo64_apply, rowTo64_apply]

/-! ## The projections at an index -/

/-! ### The 128-wide product: which entries of its operands an entry of the result meets -/

theorem lhs128_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs128_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs128_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs128_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- Entry (r, q) of the product is the sum over k of the left operand's (r, k) times the right operand's (k, q). -/
theorem dot128_apply (y : FVec Ideal S100000x128 .f32) (w : FVec Ideal S128x64 .f32)
    (r : Fin 100000) (q : Fin 64) :
    Host.dotGeneral (F := Ideal) dot_S100000x128_S128x64_S100000x64_1_0_0_1_n_n none y w (ix2 r q) = ∑ k : Fin 128, y (ix2 r k) * w (ix2 k q) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 r q) ((ValueIdx.contrEquiv1 dot_S100000x128_S128x64_S100000x64_1_0_0_1_n_n 128 rfl rfl).symm k) = ix2 r k := funext fun a => Fin.ext (by
    match a with
    | ⟨0, _⟩ => exact lhs128_0 _ _
    | ⟨1, _⟩ => exact (lhs128_1 _ _).trans hk)
  have er : dot_S100000x128_S128x64_S100000x64_1_0_0_1_n_n.rhsIdx (ix2 r q) ((ValueIdx.contrEquiv1 dot_S100000x128_S128x64_S100000x64_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ### The 64-wide product: which entries of its operands an entry of the result meets -/

theorem lhs64_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs64_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs64_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs64_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- Entry (r, q) of the product is the sum over k of the left operand's (r, k) times the right operand's (k, q). -/
theorem dot64_apply (y : FVec Ideal S100000x64 .f32) (w : FVec Ideal S64x64 .f32)
    (r : Fin 100000) (q : Fin 64) :
    Host.dotGeneral (F := Ideal) dot_S100000x64_S64x64_S100000x64_1_0_0_1_n_n none y w (ix2 r q) = ∑ k : Fin 64, y (ix2 r k) * w (ix2 k q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r q) ((ValueIdx.contrEquiv1 dot_S100000x64_S64x64_S100000x64_1_0_0_1_n_n 64 rfl rfl).symm k) = ix2 r k := funext fun a => Fin.ext (by
    match a with
    | ⟨0, _⟩ => exact lhs64_0 _ _
    | ⟨1, _⟩ => exact (lhs64_1 _ _).trans hk)
  have er : dot_S100000x64_S64x64_S100000x64_1_0_0_1_n_n.rhsIdx (ix2 r q) ((ValueIdx.contrEquiv1 dot_S100000x64_S64x64_S100000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-- `proj128` at (r, q): the sum over k of `h (r, k) · nsc r · w (k, q)`. -/
theorem proj128_apply (h : (⟨S100000x128, .f32⟩ : BufTy).Contents (Elt Ideal)) (nsc : (⟨S100000x1, .f32⟩ : BufTy).Contents (Elt Ideal))
    (w : (⟨S128x64, .f32⟩ : BufTy).Contents (Elt Ideal)) (r : Fin 100000) (q : Fin 64) :
    proj128 (F := Ideal) h nsc w (ix2 r q) = ∑ k : Fin 128, (h (ix2 r k) * nsc (ix2 r (0 : Fin 1))) * w (ix2 k q) := by
  unfold proj128
  rw [dot128_apply]
  refine Finset.sum_congr rfl fun k _ => ?_
  simp only [mulf, Ideal.mulf_def]
  rw [colTo128_apply nsc r k]

/-- `proj64` at (r, q): the sum over k of `h (r, k) · nsc r · w (k, q)`. -/
theorem proj64_apply (h : (⟨S100000x64, .f32⟩ : BufTy).Contents (Elt Ideal)) (nsc : (⟨S100000x1, .f32⟩ : BufTy).Contents (Elt Ideal))
    (w : (⟨S64x64, .f32⟩ : BufTy).Contents (Elt Ideal)) (r : Fin 100000) (q : Fin 64) :
    proj64 (F := Ideal) h nsc w (ix2 r q) = ∑ k : Fin 64, (h (ix2 r k) * nsc (ix2 r (0 : Fin 1))) * w (ix2 k q) := by
  unfold proj64
  rw [dot64_apply]
  refine Finset.sum_congr rfl fun k _ => ?_
  simp only [mulf, Ideal.mulf_def]
  rw [colTo64_apply nsc r k]

end Cert.Spec

end
-- ==== Proof.ChainHost.lean ====
/-
  What the host stretches of @main compute, read off the fold of their operations.

  Before the first region: the two degree-norm columns (the number of edges with the given endpoint, one where it is
  zero, to the power -1/2), which are the reference's `normCol` of the edge lists. Between the two regions of a layer (after the rows are
  taken): the taken rows summed into the edges' destinations, and
  the layer's bias vector laid out as one row — a reshape [64] → [1, 64], which holds at (0, q) the vector's entry q, as
  the reference's one-row layout of the bias does.
-/
import proofs.«401619_j14130442403926_1_alg».proof.Proof.Gen.KernelIdeal.Frame
import proofs.«401619_j14130442403926_1_alg».proof.Proof.SpecIdx
import Idealize.ShloMosaic.Lib.StableHlo.Run
import Idealize.ShloMosaic.Lib.Pipeline.Value
import Idealize.ShloMosaic.Lib.ValueIdx

set_option maxRecDepth 16384

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]
variable (m : (ℓ : Loc nD τ sig) → Buf (Elt F) ℓ) (ρ : Dev nD → PrngReg)

/-! ## Before the first region: the degree norms -/

set_option maxHeartbeats 4000000 in
/-- The out-degree norm column is the reference's, of the edges' sources. -/
theorem prelude_ns (c : Dev nD) : W5 m ρ c (Proc.devRef .tc main_v17)
    = Cert.Spec.normCol (F := F) (W0 m ρ c (Proc.devRef .tc main_arg7)) := by
  dsimp only [W5, W4, W3, W2, W1]
  generalize W0 m ρ c = Wp
  simp only [hostOps0, hostOps0_1, hostOps0_2, hostOps0_3, hostOps0_4]
  after_results_simp
  dsimp only [TRef.ofBuf, TRef.toBuf, cast_eq]
  unfold Cert.Spec.normCol Cert.Spec.degree
  rfl

set_option maxHeartbeats 4000000 in
/-- The in-degree norm column is the reference's, of the edges' destinations. -/
theorem prelude_nd (c : Dev nD) : W5 m ρ c (Proc.devRef .tc main_v18)
    = Cert.Spec.normCol (F := F) (W0 m ρ c (Proc.devRef .tc main_arg8)) := by
  dsimp only [W5, W4, W3, W2, W1]
  generalize W0 m ρ c = Wp
  simp only [hostOps0, hostOps0_1, hostOps0_2, hostOps0_3, hostOps0_4]
  after_results_simp
  dsimp only [TRef.ofBuf, TRef.toBuf, cast_eq]
  unfold Cert.Spec.normCol Cert.Spec.degree
  rfl

/-! ## The bias as one row -/

/-- A 64-vector reshaped to one row holds at (0, q) the vector's entry q: it is the reference's one-row layout. -/
theorem reshape_eq_biasRow (b : (⟨S64, .f32⟩ : BufTy).Contents (Elt F)) :
    shapeCast S1x64 b shapeCasts_S64_S1x64 = Cert.Spec.biasRow (F := F) b := by
  funext i
  obtain ⟨z, q, rfl⟩ : ∃ (z : Fin 1) (q : Fin 64), i = ix2 z q := ⟨i 0, i 1, eq_ix2 i⟩
  obtain rfl : z = 0 := Subsingleton.elim _ _
  rw [Cert.Spec.biasRow_apply]
  refine shapeCast_apply b shapeCasts_S64_S1x64 (ix2 (0 : Fin 1) q) (ix1 q) ?_
  rw [Shape.rowMajor_val_one, Shape.rowMajor_val_two]
  show q.val = 0 * 64 + q.val
  omega

/-! ## Layer 1: the stretches between its two regions -/

/-- The aggregate of layer 1: the taken rows summed into the rows the edges' destinations name, from zeros. -/
theorem agg1 (c : Dev nD) : W8 m ρ c (Proc.devRef .tc main_v23)
    = Host.scatterAdd scatter_S100000x64_S1600000x1_S1600000x64_1_0_0_1
        (broadcastInDim S100000x64 ![] bcast_S_S100000x64 (constant S_ .f32 0x00000000#32))
        (broadcastInDim S1600000x1 ![0] bcast_S1600000_S1600000x1_0 (W7 m ρ c (Proc.devRef .tc main_arg8)))
        (W7 m ρ c (Proc.devRef .tc main_v20)) := by
  dsimp only [W8]
  generalize W7 m ρ c = Wp
  simp only [hostOps1_1]
  after_results

/-- The bias of layer 1 laid out as one row. -/
theorem bias1 (c : Dev nD) : W8 m ρ c (Proc.devRef .tc main_v24)
    = shapeCast S1x64 (W7 m ρ c (Proc.devRef .tc main_arg2)) shapeCasts_S64_S1x64 := by
  dsimp only [W8]
  generalize W7 m ρ c = Wp
  simp only [hostOps1_1]
  after_results
  rfl

/-! ## Layer 2: the stretches between its two regions -/

/-- The aggregate of layer 2: the taken rows summed into the rows the edges' destinations name, from zeros. -/
theorem agg2 (c : Dev nD) : W12 m ρ c (Proc.devRef .tc main_v30)
    = Host.scatterAdd scatter_S100000x64_S1600000x1_S1600000x64_1_0_0_1
        (broadcastInDim S100000x64 ![] bcast_S_S100000x64 (constant S_ .f32 0x00000000#32))
        (broadcastInDim S1600000x1 ![0] bcast_S1600000_S1600000x1_0 (W11 m ρ c (Proc.devRef .tc main_arg8)))
        (W11 m ρ c (Proc.devRef .tc main_v27)) := by
  dsimp only [W12]
  generalize W11 m ρ c = Wp
  simp only [hostOps3_1]
  after_results

/-- The bias of layer 2 laid out as one row. -/
theorem bias2 (c : Dev nD) : W12 m ρ c (Proc.devRef .tc main_v31)
    = shapeCast S1x64 (W11 m ρ c (Proc.devRef .tc main_arg4)) shapeCasts_S64_S1x64 := by
  dsimp only [W12]
  generalize W11 m ρ c = Wp
  simp only [hostOps3_1]
  after_results
  rfl

/-! ## Layer 3: the stretches between its two regions -/

/-- The aggregate of layer 3: the taken rows summed into the rows the edges' destinations name, from zeros. -/
theorem agg3 (c : Dev nD) : W16 m ρ c (Proc.devRef .tc main_v37)
    = Host.scatterAdd scatter_S100000x64_S1600000x1_S1600000x64_1_0_0_1
        (broadcastInDim S100000x64 ![] bcast_S_S100000x64 (constant S_ .f32 0x00000000#32))
        (broadcastInDim S1600000x1 ![0] bcast_S1600000_S1600000x1_0 (W15 m ρ c (Proc.devRef .tc main_arg8)))
        (W15 m ρ c (Proc.devRef .tc main_v34)) := by
  dsimp only [W16]
  generalize W15 m ρ c = Wp
  simp only [hostOps5_1]
  after_results

/-- The bias of layer 3 laid out as one row. -/
theorem bias3 (c : Dev nD) : W16 m ρ c (Proc.devRef .tc main_v38)
    = shapeCast S1x64 (W15 m ρ c (Proc.devRef .tc main_arg6)) shapeCasts_S64_S1x64 := by
  dsimp only [W16]
  generalize W15 m ρ c = Wp
  simp only [hostOps5_1]
  after_results
  rfl

end Cert.KernelIdeal.Chain

end
-- ==== Proof.TakeRows.lean ====
import proofs.«401619_j14130442403926_1_alg».proof.KernelIdeal
import proofs.«401619_j14130442403926_1_alg».proof.Proof.Gen.KernelIdeal
import proofs.«401619_j14130442403926_1_alg».proof.Pre_finite_inputs
import proofs.«401619_j14130442403926_1_alg».proof.Proof.Gen.Pre_finite_inputs
import proofs.«401619_j14130442403926_1_alg».proof.Proof.Spec
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.TakeRows

open Idealize.ShloMosaic Idealize.ShloMosaic.ValueIdx Cert.KernelIdeal Cert.KernelIdeal.Gen

variable {F : FTy → Type} [FloatOps F]

/-- The edges' source nodes as start indices, a negative entry counted from the end (100000 added). -/
def wrapIdx (a7 : (⟨S1600000, .i32⟩ : BufTy).Contents (Elt F)) : (⟨S1600000x1, .i32⟩ : BufTy).Contents (Elt F) :=
  broadcastInDim S1600000x1 ![0] bcast_S1600000_S1600000x1_0
    (select (cmpi .slt a7 (broadcastInDim S1600000 ![] bcast_S_S1600000 (constantI S_ 32 0#32)))
      (addi a7 (broadcastInDim S1600000 ![] bcast_S_S1600000 (constantI S_ 32 100000#32))) a7)

/-- Per edge: is the wrapped source index inside 0 … 99999? -/
def inRange (a7 : (⟨S1600000, .i32⟩ : BufTy).Contents (Elt F)) : (⟨S1600000, .i1⟩ : BufTy).Contents (Elt F) :=
  Host.reduce IntOp.andi
    (andi (cmpi .sge (wrapIdx (F := F) a7) (broadcastInDim S1600000x1 ![] bcast_S_S1600000x1 (constantI S_ 32 0#32)))
      (cmpi .sle (wrapIdx (F := F) a7) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Row e of the result is row (wrapped source of e) of `p` where that index is in range, and the fill value
    (the quiet-NaN word) elsewhere. -/
def takeRows (p : (⟨S100000x64, .f32⟩ : BufTy).Contents (Elt F)) (a7 : (⟨S1600000, .i32⟩ : BufTy).Contents (Elt F)) :
    (⟨S1600000x64, .f32⟩ : BufTy).Contents (Elt F) :=
  select (broadcastInDim S1600000x64 ![0] bcast_S1600000_S1600000x64_0 (inRange (F := F) a7))
    (Host.gather gather_S100000x64_S1600000x1_S1600000x64_1_0_n_n_0_1_164 p (wrapIdx (F := F) a7))
    (broadcastInDim S1600000x64 ![] bcast_S_S1600000x64 (constant S_ .f32 0x7FC00000#32))

/-- The start indices are the reference's. -/
theorem wrapIdx_eq (a7 : (⟨S1600000, .i32⟩ : BufTy).Contents (Elt F)) : wrapIdx (F := F) a7 = Cert.Spec.srcIndex (F := F) a7 := rfl

/-! ## Words -/

/-- A left fold by `and` from 1 over words that are all 1 is 1. -/
theorem foldl_andi_all_one {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi (1#1) (1#1) = 1#1 from by decide]
    exact foldl_andi_all_one f hf l

/-- A reduction by `and`, from 1, of an array of ones is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_all_one x hx _

/-- A word x with -100000 ≤ x < 100000 (signed), moved up by 100000 when negative, lies in 0 … 99999 (signed). -/
theorem wrap_in_range (x : BitVec 32) (h1 : IntOp.cmpi .sge x 4294867296#32 = 1#1) (h2 : IntOp.cmpi .slt x 100000#32 = 1#1) :
    IntOp.cmpi .sge (Scalar.select (IntOp.cmpi .slt x 0#32) (IntOp.addi x 100000#32) x) 0#32 = 1#1 ∧
    IntOp.cmpi .sle (Scalar.select (IntOp.cmpi .slt x 0#32) (IntOp.addi x 100000#32) x) 99999#32 = 1#1 := by
  rw [IntOp.cmpi_sge] at h1
  rw [IntOp.cmpi_slt] at h2
  rw [IntOp.cmpi_sge, IntOp.cmpi_sle]
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  rw [e1] at h1; rw [e2] at h2; rw [e3, e4]
  by_cases hneg : IntOp.cmpi .slt x 0#32 = 1#1
  · rw [hneg, select_one]
    rw [IntOp.cmpi_slt, e3] at hneg
    have e5 : (IntOp.addi x 100000#32).toInt = x.toInt + 100000 := by
      show (x + 100000#32).toInt = x.toInt + 100000
      have hx := BitVec.toInt_eq_toNat_cond x
      have hy := BitVec.toInt_eq_toNat_cond (x + 100000#32)
      have hadd : (x + 100000#32).toNat = (x.toNat + 100000) % 2 ^ 32 := by rw [BitVec.toNat_add]; rfl
      have hlt := x.isLt
      omega
    rw [e5]; omega
  · have hz := eq_zero_of_ne_one hneg
    rw [hz, select_zero]
    rw [IntOp.cmpi_slt, e3] at hneg
    omega

/-! ## The precondition read at one edge -/

/-- Under the precondition every source index lies in -100000 … 99999 (signed). -/
theorem src_in_range
    (a0 : FVec F Cert.Pre_finite_inputs.S100000x128 .f32) (a1 : FVec F Cert.Pre_finite_inputs.S128x64 .f32)
    (a2 : FVec F Cert.Pre_finite_inputs.S64 .f32) (a3 : FVec F Cert.Pre_finite_inputs.S64x64 .f32)
    (a4 : FVec F Cert.Pre_finite_inputs.S64 .f32) (a5 : FVec F Cert.Pre_finite_inputs.S64x64 .f32)
    (a6 : FVec F Cert.Pre_finite_inputs.S64 .f32) (a7 a8 : IVec Cert.Pre_finite_inputs.S1600000 32)
    (hpre : Cert.Pre_finite_inputs.fn (F := F) a0 a1 a2 a3 a4 a5 a6 a7 a8 = fun _ => 1#1)
    (e : Cert.Pre_finite_inputs.S1600000.Idx) :
    IntOp.cmpi .sge (a7 e) 4294867296#32 = 1#1 ∧ IntOp.cmpi .slt (a7 e) 100000#32 = 1#1 := by
  have h := congrFun hpre ix0
  unfold Cert.Pre_finite_inputs.fn Cert.Pre_finite_inputs.fn_part1 Cert.Pre_finite_inputs.fn_part2 at h
  dsimp only at h
  have h2 := (IntOp.andi_eq_one.1 h).2
  haveI : Subsingleton Cert.Pre_finite_inputs.S_.Idx := ⟨fun a b => funext fun d => d.elim0⟩
  have h3 := Host.reduce_andi_all _ _ _ _ _ h2 e
  exact IntOp.andi_eq_one.1 h3

/-! ## The wrapped index and the range test at one edge -/

/-- The wrapped index at a position is the wrap of one source index. -/
theorem wrapIdx_apply (a7 : IVec S1600000 32) (i : S1600000x1.Idx) :
    ∃ k : S1600000.Idx, wrapIdx (F := F) a7 i
      = Scalar.select (IntOp.cmpi .slt (a7 k) 0#32) (IntOp.addi (a7 k) 100000#32) (a7 k) := ⟨_, rfl⟩

/-- When every source index lies in -100000 … 99999, the range test holds at every edge. -/
theorem inRange_eq_one (a7 : IVec S1600000 32)
    (hr : ∀ e : S1600000.Idx, IntOp.cmpi .sge (a7 e) 4294867296#32 = 1#1 ∧ IntOp.cmpi .slt (a7 e) 100000#32 = 1#1) :
    inRange (F := F) a7 = fun _ => 1#1 := by
  funext j
  unfold inRange
  refine reduce_andi_of_all _ _ _ _ (fun i => ?_) (fun _ => rfl) j
  obtain ⟨k, hk⟩ := wrapIdx_apply (F := F) a7 i
  show IntOp.andi (IntOp.cmpi .sge (wrapIdx (F := F) a7 i) 0#32) (IntOp.cmpi .sle (wrapIdx (F := F) a7 i) 99999#32) = 1#1
  rw [hk]
  exact IntOp.andi_eq_one.2 (wrap_in_range (a7 k) (hr k).1 (hr k).2)

/-- The two programs' gather records are one record. -/
theorem gather_record_eq :
    gather_S100000x64_S1600000x1_S1600000x64_1_0_n_n_0_1_164
      = Cert.ReferenceIdeal.gather_S100000x64_S1600000x1_S1600000x64_1_0_n_n_0_1_164 := rfl

/-- Under the precondition every source index lies in -100000 … 99999, so every wrapped index is in range, the fill
    is never selected, and the rows taken are the gathered rows. -/
theorem takeRows_eq_gather
    (a0 : FVec F Cert.Pre_finite_inputs.S100000x128 .f32) (a1 : FVec F Cert.Pre_finite_inputs.S128x64 .f32)
    (a2 : FVec F Cert.Pre_finite_inputs.S64 .f32) (a3 : FVec F Cert.Pre_finite_inputs.S64x64 .f32)
    (a4 : FVec F Cert.Pre_finite_inputs.S64 .f32) (a5 : FVec F Cert.Pre_finite_inputs.S64x64 .f32)
    (a6 : FVec F Cert.Pre_finite_inputs.S64 .f32) (a7 a8 : IVec Cert.Pre_finite_inputs.S1600000 32)
    (hpre : Cert.Pre_finite_inputs.fn (F := F) a0 a1 a2 a3 a4 a5 a6 a7 a8 = fun _ => 1#1)
    (p : (⟨S100000x64, .f32⟩ : BufTy).Contents (Elt F)) :
    takeRows (F := F) p a7 = Host.gather Cert.ReferenceIdeal.gather_S100000x64_S1600000x1_S1600000x64_1_0_n_n_0_1_164 p (Cert.Spec.srcIndex (F := F) a7) := by
  have hr := src_in_range a0 a1 a2 a3 a4 a5 a6 a7 a8 hpre
  have hin := inRange_eq_one (F := F) a7 hr
  unfold takeRows
  rw [hin]
  funext j
  rw [select_apply]
  show Scalar.select 1#1 _ _ = _
  rw [select_one, wrapIdx_eq, gather_record_eq]

end Cert.KernelIdeal.TakeRows

end
-- ==== Proof.ChainTake1.lean ====
/-
  The rows taken for layer 1, read off the host stretch that takes them.

  The stretch wraps a negative source index by 100000, tests per edge that the wrapped index lies in 0 … 99999,
  gathers the projected rows at the wrapped indices, and selects the gathered row where the test holds and the fill
  elsewhere: `takeRows` of the projected array and the source list as the stretch found them.

  The stretch is read in two parts. Its first 18 operations depend on the source list alone: they make the wrapped
  indices and the in-range test, and leave the projected array as it was. Its last 5 operations gather the rows and
  select between them and the fill, as a function of what the first part left.
-/
import proofs.«401619_j14130442403926_1_alg».proof.Proof.Gen.KernelIdeal.Frame
import proofs.«401619_j14130442403926_1_alg».proof.Proof.TakeRows
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A stretch of host operations read in two parts: its first `n` operations, then the rest. -/
theorem after_cut1 (n : Nat) (ops : List (HloOp τ sig (Elt F))) (W : Valuation τ sig (Elt F)) :
    StableHlo.after ops W = StableHlo.after (ops.drop n) (StableHlo.after (ops.take n) W) := by
  rw [← StableHlo.after_append, List.take_append_drop]

set_option maxHeartbeats 4000000 in
/-- The first part leaves the wrapped source indices as start indices. -/
theorem take1_idx (Wp : Valuation τ sig (Elt F)) :
    StableHlo.after ((hostOps1 : List (HloOp τ sig (Elt F))).take 18) Wp (Proc.devRef .tc main_call2_v5)
      = TakeRows.wrapIdx (F := F) (Wp (Proc.devRef .tc main_arg7)) := by
  simp only [hostOps1, List.take_succ_cons, List.take_zero]
  after_results_simp
  dsimp only [TRef.ofBuf, TRef.toBuf, cast_eq]
  unfold TakeRows.wrapIdx
  with_reducible rfl

set_option maxHeartbeats 4000000 in
/-- The first part leaves the in-range test of the wrapped indices. -/
theorem take1_mask (Wp : Valuation τ sig (Elt F)) :
    StableHlo.after ((hostOps1 : List (HloOp τ sig (Elt F))).take 18) Wp (Proc.devRef .tc main_call2_v12)
      = TakeRows.inRange (F := F) (Wp (Proc.devRef .tc main_arg7)) := by
  simp only [hostOps1, List.take_succ_cons, List.take_zero]
  after_results_simp
  dsimp only [TRef.ofBuf, TRef.toBuf, cast_eq]
  unfold TakeRows.inRange TakeRows.wrapIdx
  with_reducible rfl

set_option maxHeartbeats 4000000 in
/-- The first part does not write the projected array. -/
theorem take1_proj (Wp : Valuation τ sig (Elt F)) :
    StableHlo.after ((hostOps1 : List (HloOp τ sig (Elt F))).take 18) Wp (Proc.devRef .tc main_v19)
      = Wp (Proc.devRef .tc main_v19) := by
  simp only [hostOps1, List.take_succ_cons, List.take_zero]
  after_results_simp

set_option maxHeartbeats 4000000 in
/-- The last part: the rows gathered at the start indices it finds, where the test it finds holds, the fill elsewhere. -/
theorem take1_tail (Y : Valuation τ sig (Elt F)) :
    StableHlo.after ((hostOps1 : List (HloOp τ sig (Elt F))).drop 18) Y (Proc.devRef .tc main_v20)
      = select (broadcastInDim S1600000x64 ![0] bcast_S1600000_S1600000x64_0 (Y (Proc.devRef .tc main_call2_v12)))
          (Host.gather gather_S100000x64_S1600000x1_S1600000x64_1_0_n_n_0_1_164 (Y (Proc.devRef .tc main_v19)) (Y (Proc.devRef .tc main_call2_v5)))
          (broadcastInDim S1600000x64 ![] bcast_S_S1600000x64 (constant (F := F) S_ .f32 0x7FC00000#32)) := by
  simp only [hostOps1, List.drop_succ_cons, List.drop_zero]
  after_results_simp
  rfl

/-- The rows taken for layer 1: the projected rows at the wrapped source indices, the fill where out of range. -/
theorem take1 (c : Dev nD) : W7 m ρ c (Proc.devRef .tc main_v20)
    = TakeRows.takeRows (F := F) (W6 m ρ c (Proc.devRef .tc main_v19)) (W6 m ρ c (Proc.devRef .tc main_arg7)) := by
  dsimp only [W7]
  generalize W6 m ρ c = Wp
  rw [after_cut1 18 hostOps1 Wp, take1_tail, take1_idx, take1_mask, take1_proj]
  rfl

end Cert.KernelIdeal.Chain

end
-- ==== Proof.ChainTake2.lean ====
/-
  The rows taken for layer 2, read off the host stretch that takes them.

  The stretch wraps a negative source index by 100000, tests per edge that the wrapped index lies in 0 … 99999,
  gathers the projected rows at the wrapped indices, and selects the gathered row where the test holds and the fill
  elsewhere: `takeRows` of the projected array and the source list as the stretch found them.

  The stretch is read in two parts. Its first 18 operations depend on the source list alone: they make the wrapped
  indices and the in-range test, and leave the projected array as it was. Its last 5 operations gather the rows and
  select between them and the fill, as a function of what the first part left.
-/
import proofs.«401619_j14130442403926_1_alg».proof.Proof.Gen.KernelIdeal.Frame
import proofs.«401619_j14130442403926_1_alg».proof.Proof.TakeRows
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A stretch of host operations read in two parts: its first `n` operations, then the rest. -/
theorem after_cut2 (n : Nat) (ops : List (HloOp τ sig (Elt F))) (W : Valuation τ sig (Elt F)) :
    StableHlo.after ops W = StableHlo.after (ops.drop n) (StableHlo.after (ops.take n) W) := by
  rw [← StableHlo.after_append, List.take_append_drop]

set_option maxHeartbeats 4000000 in
/-- The first part leaves the wrapped source indices as start indices. -/
theorem take2_idx (Wp : Valuation τ sig (Elt F)) :
    StableHlo.after ((hostOps3 : List (HloOp τ sig (Elt F))).take 18) Wp (Proc.devRef .tc main_call3_v5)
      = TakeRows.wrapIdx (F := F) (Wp (Proc.devRef .tc main_arg7)) := by
  simp only [hostOps3, List.take_succ_cons, List.take_zero]
  after_results_simp
  dsimp only [TRef.ofBuf, TRef.toBuf, cast_eq]
  unfold TakeRows.wrapIdx
  with_reducible rfl

set_option maxHeartbeats 4000000 in
/-- The first part leaves the in-range test of the wrapped indices. -/
theorem take2_mask (Wp : Valuation τ sig (Elt F)) :
    StableHlo.after ((hostOps3 : List (HloOp τ sig (Elt F))).take 18) Wp (Proc.devRef .tc main_call3_v12)
      = TakeRows.inRange (F := F) (Wp (Proc.devRef .tc main_arg7)) := by
  simp only [hostOps3, List.take_succ_cons, List.take_zero]
  after_results_simp
  dsimp only [TRef.ofBuf, TRef.toBuf, cast_eq]
  unfold TakeRows.inRange TakeRows.wrapIdx
  with_reducible rfl

set_option maxHeartbeats 4000000 in
/-- The first part does not write the projected array. -/
theorem take2_proj (Wp : Valuation τ sig (Elt F)) :
    StableHlo.after ((hostOps3 : List (HloOp τ sig (Elt F))).take 18) Wp (Proc.devRef .tc main_v26)
      = Wp (Proc.devRef .tc main_v26) := by
  simp only [hostOps3, List.take_succ_cons, List.take_zero]
  after_results_simp

set_option maxHeartbeats 4000000 in
/-- The last part: the rows gathered at the start indices it finds, where the test it finds holds, the fill elsewhere. -/
theorem take2_tail (Y : Valuation τ sig (Elt F)) :
    StableHlo.after ((hostOps3 : List (HloOp τ sig (Elt F))).drop 18) Y (Proc.devRef .tc main_v27)
      = select (broadcastInDim S1600000x64 ![0] bcast_S1600000_S1600000x64_0 (Y (Proc.devRef .tc main_call3_v12)))
          (Host.gather gather_S100000x64_S1600000x1_S1600000x64_1_0_n_n_0_1_164 (Y (Proc.devRef .tc main_v26)) (Y (Proc.devRef .tc main_call3_v5)))
          (broadcastInDim S1600000x64 ![] bcast_S_S1600000x64 (constant (F := F) S_ .f32 0x7FC00000#32)) := by
  simp only [hostOps3, List.drop_succ_cons, List.drop_zero]
  after_results_simp
  rfl

/-- The rows taken for layer 2: the projected rows at the wrapped source indices, the fill where out of range. -/
theorem take2 (c : Dev nD) : W11 m ρ c (Proc.devRef .tc main_v27)
    = TakeRows.takeRows (F := F) (W10 m ρ c (Proc.devRef .tc main_v26)) (W10 m ρ c (Proc.devRef .tc main_arg7)) := by
  dsimp only [W11]
  generalize W10 m ρ c = Wp
  rw [after_cut2 18 hostOps3 Wp, take2_tail, take2_idx, take2_mask, take2_proj]
  rfl

end Cert.KernelIdeal.Chain

end
-- ==== Proof.ChainTake3.lean ====
/-
  The rows taken for layer 3, read off the host stretch that takes them.

  The stretch wraps a negative source index by 100000, tests per edge that the wrapped index lies in 0 … 99999,
  gathers the projected rows at the wrapped indices, and selects the gathered row where the test holds and the fill
  elsewhere: `takeRows` of the projected array and the source list as the stretch found them.

  The stretch is read in two parts. Its first 18 operations depend on the source list alone: they make the wrapped
  indices and the in-range test, and leave the projected array as it was. Its last 5 operations gather the rows and
  select between them and the fill, as a function of what the first part left.
-/
import proofs.«401619_j14130442403926_1_alg».proof.Proof.Gen.KernelIdeal.Frame
import proofs.«401619_j14130442403926_1_alg».proof.Proof.TakeRows
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A stretch of host operations read in two parts: its first `n` operations, then the rest. -/
theorem after_cut3 (n : Nat) (ops : List (HloOp τ sig (Elt F))) (W : Valuation τ sig (Elt F)) :
    StableHlo.after ops W = StableHlo.after (ops.drop n) (StableHlo.after (ops.take n) W) := by
  rw [← StableHlo.after_append, List.take_append_drop]

set_option maxHeartbeats 4000000 in
/-- The first part leaves the wrapped source indices as start indices. -/
theorem take3_idx (Wp : Valuation τ sig (Elt F)) :
    StableHlo.after ((hostOps5 : List (HloOp τ sig (Elt F))).take 18) Wp (Proc.devRef .tc main_call4_v5)
      = TakeRows.wrapIdx (F := F) (Wp (Proc.devRef .tc main_arg7)) := by
  simp only [hostOps5, List.take_succ_cons, List.take_zero]
  after_results_simp
  dsimp only [TRef.ofBuf, TRef.toBuf, cast_eq]
  unfold TakeRows.wrapIdx
  with_reducible rfl

set_option maxHeartbeats 4000000 in
/-- The first part leaves the in-range test of the wrapped indices. -/
theorem take3_mask (Wp : Valuation τ sig (Elt F)) :
    StableHlo.after ((hostOps5 : List (HloOp τ sig (Elt F))).take 18) Wp (Proc.devRef .tc main_call4_v12)
      = TakeRows.inRange (F := F) (Wp (Proc.devRef .tc main_arg7)) := by
  simp only [hostOps5, List.take_succ_cons, List.take_zero]
  after_results_simp
  dsimp only [TRef.ofBuf, TRef.toBuf, cast_eq]
  unfold TakeRows.inRange TakeRows.wrapIdx
  with_reducible rfl

set_option maxHeartbeats 4000000 in
/-- The first part does not write the projected array. -/
theorem take3_proj (Wp : Valuation τ sig (Elt F)) :
    StableHlo.after ((hostOps5 : List (HloOp τ sig (Elt F))).take 18) Wp (Proc.devRef .tc main_v33)
      = Wp (Proc.devRef .tc main_v33) := by
  simp only [hostOps5, List.take_succ_cons, List.take_zero]
  after_results_simp

set_option maxHeartbeats 4000000 in
/-- The last part: the rows gathered at the start indices it finds, where the test it finds holds, the fill elsewhere. -/
theorem take3_tail (Y : Valuation τ sig (Elt F)) :
    StableHlo.after ((hostOps5 : List (HloOp τ sig (Elt F))).drop 18) Y (Proc.devRef .tc main_v34)
      = select (broadcastInDim S1600000x64 ![0] bcast_S1600000_S1600000x64_0 (Y (Proc.devRef .tc main_call4_v12)))
          (Host.gather gather_S100000x64_S1600000x1_S1600000x64_1_0_n_n_0_1_164 (Y (Proc.devRef .tc main_v33)) (Y (Proc.devRef .tc main_call4_v5)))
          (broadcastInDim S1600000x64 ![] bcast_S_S1600000x64 (constant (F := F) S_ .f32 0x7FC00000#32)) := by
  simp only [hostOps5, List.drop_succ_cons, List.drop_zero]
  after_results_simp
  rfl

/-- The rows taken for layer 3: the projected rows at the wrapped source indices, the fill where out of range. -/
theorem take3 (c : Dev nD) : W15 m ρ c (Proc.devRef .tc main_v34)
    = TakeRows.takeRows (F := F) (W14 m ρ c (Proc.devRef .tc main_v33)) (W14 m ρ c (Proc.devRef .tc main_arg7)) := by
  dsimp only [W15]
  generalize W14 m ρ c = Wp
  rw [after_cut3 18 hostOps5 Wp, take3_tail, take3_idx, take3_mask, take3_proj]
  rfl

end Cert.KernelIdeal.Chain

end
-- ==== Proof.ProjRegion0.lean ====
import proofs.«401619_j14130442403926_1_alg».proof.Proof.Gen.KernelIdeal.Frame
import proofs.«401619_j14130442403926_1_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjRegion0

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

/-! ## The payload at an index -/

/-- A column broadcast along further columns reads, at (p, c), the column's entry of row p. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The 2000 × 128 by 128 × 64 product: which entries of its operands an entry of the result meets -/

theorem lhsK_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhsK_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhsK_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhsK_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Entry (p, q) of the block product into a zero accumulator is the sum over k of the left block's (p, k) times the
    right block's (k, q). -/
theorem blockDot_apply {φ₁ φ₂ : FTy} (y : FVec Ideal S2000x128 φ₁) (w : FVec Ideal S128x64 φ₂) (p : Fin 2000) (q : Fin 64) :
    matmul (F := Ideal) dot_S2000x128_S128x64_S2000x64_1_0_0_1_n_n none y w (constant (F := Ideal) S2000x64 .f32 0x00000000#32) (ix2 p q)
      = ∑ k : Fin 128, y (ix2 p k) * w (ix2 k q) := by
  show FloatOps.matmul dot_S2000x128_S128x64_S2000x64_1_0_0_1_n_n none y w (constant S2000x64 .f32 0x00000000#32) (ix2 p q) = _
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhsK_0 _ _
    | ⟨1, _⟩ => exact (lhsK_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhsK_0 _ _).trans hk
    | ⟨1, _⟩ => exact rhsK_1 _ _)
  rw [el, er]

/-- The body's payload at (p, q): the sum over k of the features block's (p, k) times the norm block's row p times the
    weights' (k, q); the two narrowings are the identity on ideal values. -/
theorem pay_apply (x0 : Vec Ideal S2000x128 .f32) (x1 : Vec Ideal S2000x1 .f32) (x2 : Vec Ideal S128x64 .f32)
    (p : Fin 2000) (q : Fin 64) :
    k0_pay1 (F := Ideal) x0 x1 x2 (ix2 p q) = ∑ k : Fin 128, (x0 (ix2 p k) * x1 (ix2 p (0 : Fin 1))) * x2 (ix2 k q) := by
  unfold k0_pay1
  refine (blockDot_apply _ _ p q).trans ?_
  refine Finset.sum_congr rfl fun k _ => ?_
  show (x0 (ix2 p k) * broadcastTo S2000x128 (shapeCast S2000x1 x1 shapeCasts_S2000x1_S2000x1) broadcasts_S2000x1_S2000x128 (ix2 p k)) * x2 (ix2 k q) = _
  rw [shapeCast_self, colBroadcast_apply]

-- The TensorCore's buffer contents when the region is entered: any contents.
variable (V : (c : Dev nD) → (b : Ref sig .tc) → Buf (Elt Ideal) ((c : Thread nD τ).loc b))

/-! ## The blocks in their arrays -/

theorem zeroOffsets : (![0, 0] : Fin 2 → Nat) = fun _ => 0 := funext fun a => by fin_cases a <;> rfl

/-- The printed index maps, decided once over the grid: at point t the features', the norm column's and the output's
    block is the t-th along the rows, and the weights' block is the whole array. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the features' block at point t is row 2000 t + p of the features. -/
theorem emb_features (t : Fin cfg0.N) (p : Fin 2000) (k : Fin 128) (r : Fin 100000) (hr : r.val = 2000 * t.val + p.val) :
    ((cfg0.win 0).blk t).view.emb (ix2 p k) = ix2 r k := by
  obtain ⟨e0, e1, -⟩ := blockIndex t
  funext a; apply Fin.ext
  match a with
  | ⟨0, _⟩ => show win0_0.index t (0 : Fin 2) * 2000 + 1 * p.val = r.val; omega
  | ⟨1, _⟩ => show win0_0.index t (1 : Fin 2) * 128 + 1 * k.val = k.val; omega

/-- Row p of the norm column's block at point t is row 2000 t + p of the column. -/
theorem emb_norm (t : Fin cfg0.N) (p : Fin 2000) (r : Fin 100000) (hr : r.val = 2000 * t.val + p.val) :
    ((cfg0.win 1).blk t).view.emb (ix2 p (0 : Fin 1)) = ix2 r (0 : Fin 1) := by
  obtain ⟨-, -, e0, e1, -⟩ := blockIndex t
  funext a; apply Fin.ext
  match a with
  | ⟨0, _⟩ => show win0_1.index t (0 : Fin 2) * 2000 + 1 * p.val = r.val; omega
  | ⟨1, _⟩ => show win0_1.index t (1 : Fin 2) * 1 + 1 * 0 = 0; omega

/-- The weights' block at any point is the weights. -/
theorem emb_weights (t : Fin cfg0.N) (k : Fin 128) (q : Fin 64) :
    ((cfg0.win 2).blk t).view.emb (ix2 k q) = ix2 k q := by
  obtain ⟨-, -, -, -, e0, e1, -⟩ := blockIndex t
  funext a; apply Fin.ext
  match a with
  | ⟨0, _⟩ => show win0_2.index t (0 : Fin 2) * 128 + 1 * k.val = k.val; omega
  | ⟨1, _⟩ => show win0_2.index t (1 : Fin 2) * 64 + 1 * q.val = q.val; omega

/-- Row p of the output's block at point t is row 2000 t + p of the output. -/
theorem emb_out (t : Fin cfg0.N) (p : Fin 2000) (q : Fin 64) (r : Fin 100000) (hr : r.val = 2000 * t.val + p.val) :
    ((cfg0.win 3).blk t).view.emb (ix2 p q) = ix2 r q := by
  obtain ⟨-, -, -, -, -, -, e0, e1⟩ := blockIndex t
  funext a; apply Fin.ext
  match a with
  | ⟨0, _⟩ => show win0_3.index t (0 : Fin 2) * 2000 + 1 * p.val = r.val; omega
  | ⟨1, _⟩ => show win0_3.index t (1 : Fin 2) * 64 + 1 * q.val = q.val; omega

/-! ## What a point writes back -/

/-- What point t writes back is its block of the projection of the region-entry arrays. -/
theorem flushed_eq (c : Dev nD) (t : Fin cfg0.N) :
    (dat0 (F := Ideal) V c).flushed 3 t = ((cfg0.win 3).blk t).view.read (Elt Ideal)
      (Cert.Spec.proj128 (F := Ideal) (V c main_arg0) (V c main_v17) (V c main_arg1)) := by
  show (cfg0.win 3).cut (grid0.coords t) ((dat0 V c).after 3 t) = _
  rw [after0_3]
  unfold out0_3
  rw [View.canon_unit_zero zeroOffsets]
  simp only [View.ld_unit_zero (S := S2000x128) zeroOffsets, View.ld_unit_zero (S := S2000x1) zeroOffsets,
    View.ld_unit_zero (S := S128x64) zeroOffsets]
  funext j
  obtain ⟨p, q, rfl⟩ : ∃ (p : Fin 2000) (q : Fin 64), j = ix2 p q := ⟨j 0, j 1, eq_ix2 j⟩
  have ht : t.val < 50 := by have := t.isLt; have hN : grid0.N = 50 := N_0; exact hN ▸ this
  have hr : 2000 * t.val + p.val < 100000 := by have := p.isLt; omega
  refine (pay_apply _ _ _ p q).trans ?_
  show _ = Cert.Spec.proj128 (F := Ideal) (V c main_arg0) (V c main_v17) (V c main_arg1) (((cfg0.win 3).blk t).view.emb (ix2 p q))
  rw [emb_out t p q ⟨2000 * t.val + p.val, hr⟩ rfl, Cert.Spec.proj128_apply]
  refine Finset.sum_congr rfl fun k _ => ?_
  have e0 : iblk0 V c 0 t (ix2 p k) = V c main_arg0 (ix2 (⟨2000 * t.val + p.val, hr⟩ : Fin 100000) k) :=
    congrArg (V c main_arg0) (emb_features t p k ⟨2000 * t.val + p.val, hr⟩ rfl)
  have e1 : iblk0 V c 1 t (ix2 p (0 : Fin 1)) = V c main_v17 (ix2 (⟨2000 * t.val + p.val, hr⟩ : Fin 100000) (0 : Fin 1)) :=
    congrArg (V c main_v17) (emb_norm t p ⟨2000 * t.val + p.val, hr⟩ rfl)
  have e2 : iblk0 V c 2 t (ix2 k q) = V c main_arg1 (ix2 k q) := congrArg (V c main_arg1) (emb_weights t k q)
  rw [e0, e1, e2]

/-! ## The blocks cover the output -/

/-- An index of the output is in point t's block iff each coordinate is in the block's range on its axis. -/
theorem mem_blk (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v19).slice (win0_3.rect t)).set ↔ _
  rw [View.set_slice_whole, Rect.mem_set_unit]
  exact Iff.rfl

/-- Row r of the output is in the block of the point r / 2000, and every point writes its block back. -/
theorem cover (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  have hN : grid0.N = 50 := N_0
  have hlt : (i 0).val / 2000 < grid0.N := by omega
  refine ⟨⟨(i 0).val / 2000, hlt⟩, flush0_3 _, ?_⟩
  rw [mem_blk]
  obtain ⟨-, -, -, -, -, -, e0, e1⟩ := blockIndex ⟨(i 0).val / 2000, hlt⟩
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, hlt⟩ (1 : Fin 2) * 64 ≤ (i 1).val
      ∧ (i 1).val < win0_3.index ⟨(i 0).val / 2000, hlt⟩ (1 : Fin 2) * 64 + 64
    rw [e1]; omega

/-! ## The array after the region -/

/-- After the scale-and-project region 0 the output array holds, at (r, q), the sum over k of the input's (r, k) times
    the norm column's r times the weights' (k, q): the whole-array projection of the region-entry arrays. -/
theorem array_eq (c : Dev nD) :
    (dat0 (F := Ideal) V c).arrAt 3 cfg0.N = Cert.Spec.proj128 (F := Ideal) (V c main_arg0) (V c main_v17) (V c main_arg1) :=
  (dat0 (F := Ideal) V c).arrAt_eq_of_cover 3 _ (fun t _ => flushed_eq V c t) cover

end Cert.KernelIdeal.ProjRegion0

end
-- ==== Proof.ProjRegion2.lean ====
import proofs.«401619_j14130442403926_1_alg».proof.Proof.Gen.KernelIdeal.Frame
import proofs.«401619_j14130442403926_1_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjRegion2

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

/-! ## The payload at an index -/

/-- A column broadcast along further columns reads, at (p, c), the column's entry of row p. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The 2000 × 64 by 64 × 64 product: which entries of its operands an entry of the result meets -/

theorem lhsK_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhsK_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhsK_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhsK_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Entry (p, q) of the block product into a zero accumulator is the sum over k of the left block's (p, k) times the
    right block's (k, q). -/
theorem blockDot_apply {φ₁ φ₂ : FTy} (y : FVec Ideal S2000x64 φ₁) (w : FVec Ideal S64x64 φ₂) (p : Fin 2000) (q : Fin 64) :
    matmul (F := Ideal) dot_S2000x64_S64x64_S2000x64_1_0_0_1_n_n none y w (constant (F := Ideal) S2000x64 .f32 0x00000000#32) (ix2 p q)
      = ∑ k : Fin 64, y (ix2 p k) * w (ix2 k q) := by
  show FloatOps.matmul dot_S2000x64_S64x64_S2000x64_1_0_0_1_n_n none y w (constant S2000x64 .f32 0x00000000#32) (ix2 p q) = _
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhsK_0 _ _
    | ⟨1, _⟩ => exact (lhsK_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhsK_0 _ _).trans hk
    | ⟨1, _⟩ => exact rhsK_1 _ _)
  rw [el, er]

/-- The body's payload at (p, q): the sum over k of the features block's (p, k) times the norm block's row p times the
    weights' (k, q); the two narrowings are the identity on ideal values. -/
theorem pay_apply (x0 : Vec Ideal S2000x64 .f32) (x1 : Vec Ideal S2000x1 .f32) (x2 : Vec Ideal S64x64 .f32)
    (p : Fin 2000) (q : Fin 64) :
    k2_pay1 (F := Ideal) x0 x1 x2 (ix2 p q) = ∑ k : Fin 64, (x0 (ix2 p k) * x1 (ix2 p (0 : Fin 1))) * x2 (ix2 k q) := by
  unfold k2_pay1
  refine (blockDot_apply _ _ p q).trans ?_
  refine Finset.sum_congr rfl fun k _ => ?_
  show (shapeCast S2000x64 x0 shapeCasts_S2000x64_S2000x64 (ix2 p k)
      * broadcastTo S2000x64 (shapeCast S2000x1 x1 shapeCasts_S2000x1_S2000x1) broadcasts_S2000x1_S2000x64 (ix2 p k)) * x2 (ix2 k q) = _
  rw [shapeCast_self, shapeCast_self, colBroadcast_apply]

-- The TensorCore's buffer contents when the region is entered: any contents.
variable (V : (c : Dev nD) → (b : Ref sig .tc) → Buf (Elt Ideal) ((c : Thread nD τ).loc b))

/-! ## The blocks in their arrays -/

theorem zeroOffsets : (![0, 0] : Fin 2 → Nat) = fun _ => 0 := funext fun a => by fin_cases a <;> rfl

/-- The printed index maps, decided once over the grid: at point t the features', the norm column's and the output's
    block is the t-th along the rows, and the weights' block is the whole array. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the features' block at point t is row 2000 t + p of the features. -/
theorem emb_features (t : Fin cfg2.N) (p : Fin 2000) (k : Fin 64) (r : Fin 100000) (hr : r.val = 2000 * t.val + p.val) :
    ((cfg2.win 0).blk t).view.emb (ix2 p k) = ix2 r k := by
  obtain ⟨e0, e1, -⟩ := blockIndex t
  funext a; apply Fin.ext
  match a with
  | ⟨0, _⟩ => show win2_0.index t (0 : Fin 2) * 2000 + 1 * p.val = r.val; omega
  | ⟨1, _⟩ => show win2_0.index t (1 : Fin 2) * 64 + 1 * k.val = k.val; omega

/-- Row p of the norm column's block at point t is row 2000 t + p of the column. -/
theorem emb_norm (t : Fin cfg2.N) (p : Fin 2000) (r : Fin 100000) (hr : r.val = 2000 * t.val + p.val) :
    ((cfg2.win 1).blk t).view.emb (ix2 p (0 : Fin 1)) = ix2 r (0 : Fin 1) := by
  obtain ⟨-, -, e0, e1, -⟩ := blockIndex t
  funext a; apply Fin.ext
  match a with
  | ⟨0, _⟩ => show win2_1.index t (0 : Fin 2) * 2000 + 1 * p.val = r.val; omega
  | ⟨1, _⟩ => show win2_1.index t (1 : Fin 2) * 1 + 1 * 0 = 0; omega

/-- The weights' block at any point is the weights. -/
theorem emb_weights (t : Fin cfg2.N) (k : Fin 64) (q : Fin 64) :
    ((cfg2.win 2).blk t).view.emb (ix2 k q) = ix2 k q := by
  obtain ⟨-, -, -, -, e0, e1, -⟩ := blockIndex t
  funext a; apply Fin.ext
  match a with
  | ⟨0, _⟩ => show win2_2.index t (0 : Fin 2) * 64 + 1 * k.val = k.val; omega
  | ⟨1, _⟩ => show win2_2.index t (1 : Fin 2) * 64 + 1 * q.val = q.val; omega

/-- Row p of the output's block at point t is row 2000 t + p of the output. -/
theorem emb_out (t : Fin cfg2.N) (p : Fin 2000) (q : Fin 64) (r : Fin 100000) (hr : r.val = 2000 * t.val + p.val) :
    ((cfg2.win 3).blk t).view.emb (ix2 p q) = ix2 r q := by
  obtain ⟨-, -, -, -, -, -, e0, e1⟩ := blockIndex t
  funext a; apply Fin.ext
  match a with
  | ⟨0, _⟩ => show win2_3.index t (0 : Fin 2) * 2000 + 1 * p.val = r.val; omega
  | ⟨1, _⟩ => show win2_3.index t (1 : Fin 2) * 64 + 1 * q.val = q.val; omega

/-! ## What a point writes back -/

/-- What point t writes back is its block of the projection of the region-entry arrays. -/
theorem flushed_eq (c : Dev nD) (t : Fin cfg2.N) :
    (dat2 (F := Ideal) V c).flushed 3 t = ((cfg2.win 3).blk t).view.read (Elt Ideal)
      (Cert.Spec.proj64 (F := Ideal) (V c main_v25) (V c main_v17) (V c main_arg3)) := by
  show (cfg2.win 3).cut (grid2.coords t) ((dat2 V c).after 3 t) = _
  rw [after2_3]
  unfold out2_3
  rw [View.canon_unit_zero zeroOffsets]
  simp only [View.ld_unit_zero (S := S2000x64) zeroOffsets, View.ld_unit_zero (S := S2000x1) zeroOffsets,
    View.ld_unit_zero (S := S64x64) zeroOffsets]
  funext j
  obtain ⟨p, q, rfl⟩ : ∃ (p : Fin 2000) (q : Fin 64), j = ix2 p q := ⟨j 0, j 1, eq_ix2 j⟩
  have ht : t.val < 50 := by have := t.isLt; have hN : grid2.N = 50 := N_2; exact hN ▸ this
  have hr : 2000 * t.val + p.val < 100000 := by have := p.isLt; omega
  refine (pay_apply _ _ _ p q).trans ?_
  show _ = Cert.Spec.proj64 (F := Ideal) (V c main_v25) (V c main_v17) (V c main_arg3) (((cfg2.win 3).blk t).view.emb (ix2 p q))
  rw [emb_out t p q ⟨2000 * t.val + p.val, hr⟩ rfl, Cert.Spec.proj64_apply]
  refine Finset.sum_congr rfl fun k _ => ?_
  have e0 : iblk2 V c 0 t (ix2 p k) = V c main_v25 (ix2 (⟨2000 * t.val + p.val, hr⟩ : Fin 100000) k) :=
    congrArg (V c main_v25) (emb_features t p k ⟨2000 * t.val + p.val, hr⟩ rfl)
  have e1 : iblk2 V c 1 t (ix2 p (0 : Fin 1)) = V c main_v17 (ix2 (⟨2000 * t.val + p.val, hr⟩ : Fin 100000) (0 : Fin 1)) :=
    congrArg (V c main_v17) (emb_norm t p ⟨2000 * t.val + p.val, hr⟩ rfl)
  have e2 : iblk2 V c 2 t (ix2 k q) = V c main_arg3 (ix2 k q) := congrArg (V c main_arg3) (emb_weights t k q)
  rw [e0, e1, e2]

/-! ## The blocks cover the output -/

/-- An index of the output is in point t's block iff each coordinate is in the block's range on its axis. -/
theorem mem_blk (t : Fin cfg2.N) (i : S100000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v26).slice (win2_3.rect t)).set ↔ _
  rw [View.set_slice_whole, Rect.mem_set_unit]
  exact Iff.rfl

/-- Row r of the output is in the block of the point r / 2000, and every point writes its block back. -/
theorem cover (i : S100000x64.Idx) :
    ∃ t : Fin cfg2.N, (cfg2.win 3).flush t = true ∧ i ∈ ((cfg2.win 3).blk t).view.set := by
  have hi0 : (i 0).val < 100000 := idx2_lt0 i
  have hi1 : (i 1).val < 64 := idx2_lt1 i
  have hN : grid2.N = 50 := N_2
  have hlt : (i 0).val / 2000 < grid2.N := by omega
  refine ⟨⟨(i 0).val / 2000, hlt⟩, flush2_3 _, ?_⟩
  rw [mem_blk]
  obtain ⟨-, -, -, -, -, -, e0, e1⟩ := blockIndex ⟨(i 0).val / 2000, hlt⟩
  intro a
  match a with
  | ⟨0, _⟩ =>
    show win2_3.index ⟨(i 0).val / 2000, hlt⟩ (0 : Fin 2) * 2000 ≤ (i 0).val
      ∧ (i 0).val < win2_3.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, hlt⟩ (1 : Fin 2) * 64 ≤ (i 1).val
      ∧ (i 1).val < win2_3.index ⟨(i 0).val / 2000, hlt⟩ (1 : Fin 2) * 64 + 64
    rw [e1]; omega

/-! ## The array after the region -/

/-- After the scale-and-project region 2 the output array holds, at (r, q), the sum over k of the input's (r, k) times
    the norm column's r times the weights' (k, q): the whole-array projection of the region-entry arrays. -/
theorem array_eq (c : Dev nD) :
    (dat2 (F := Ideal) V c).arrAt 3 cfg2.N = Cert.Spec.proj64 (F := Ideal) (V c main_v25) (V c main_v17) (V c main_arg3) :=
  (dat2 (F := Ideal) V c).arrAt_eq_of_cover 3 _ (fun t _ => flushed_eq V c t) cover

end Cert.KernelIdeal.ProjRegion2

end
-- ==== Proof.ProjRegion4.lean ====
import proofs.«401619_j14130442403926_1_alg».proof.Proof.Gen.KernelIdeal.Frame
import proofs.«401619_j14130442403926_1_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjRegion4

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

/-! ## The payload at an index -/

/-- A column broadcast along further columns reads, at (p, c), the column's entry of row p. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The 2000 × 64 by 64 × 64 product: which entries of its operands an entry of the result meets -/

theorem lhsK_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhsK_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhsK_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhsK_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Entry (p, q) of the block product into a zero accumulator is the sum over k of the left block's (p, k) times the
    right block's (k, q). -/
theorem blockDot_apply {φ₁ φ₂ : FTy} (y : FVec Ideal S2000x64 φ₁) (w : FVec Ideal S64x64 φ₂) (p : Fin 2000) (q : Fin 64) :
    matmul (F := Ideal) dot_S2000x64_S64x64_S2000x64_1_0_0_1_n_n none y w (constant (F := Ideal) S2000x64 .f32 0x00000000#32) (ix2 p q)
      = ∑ k : Fin 64, y (ix2 p k) * w (ix2 k q) := by
  show FloatOps.matmul dot_S2000x64_S64x64_S2000x64_1_0_0_1_n_n none y w (constant S2000x64 .f32 0x00000000#32) (ix2 p q) = _
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhsK_0 _ _
    | ⟨1, _⟩ => exact (lhsK_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhsK_0 _ _).trans hk
    | ⟨1, _⟩ => exact rhsK_1 _ _)
  rw [el, er]

/-- The body's payload at (p, q): the sum over k of the features block's (p, k) times the norm block's row p times the
    weights' (k, q); the two narrowings are the identity on ideal values. -/
theorem pay_apply (x0 : Vec Ideal S2000x64 .f32) (x1 : Vec Ideal S2000x1 .f32) (x2 : Vec Ideal S64x64 .f32)
    (p : Fin 2000) (q : Fin 64) :
    k4_pay1 (F := Ideal) x0 x1 x2 (ix2 p q) = ∑ k : Fin 64, (x0 (ix2 p k) * x1 (ix2 p (0 : Fin 1))) * x2 (ix2 k q) := by
  unfold k4_pay1
  refine (blockDot_apply _ _ p q).trans ?_
  refine Finset.sum_congr rfl fun k _ => ?_
  show (shapeCast S2000x64 x0 shapeCasts_S2000x64_S2000x64 (ix2 p k)
      * broadcastTo S2000x64 (shapeCast S2000x1 x1 shapeCasts_S2000x1_S2000x1) broadcasts_S2000x1_S2000x64 (ix2 p k)) * x2 (ix2 k q) = _
  rw [shapeCast_self, shapeCast_self, colBroadcast_apply]

-- The TensorCore's buffer contents when the region is entered: any contents.
variable (V : (c : Dev nD) → (b : Ref sig .tc) → Buf (Elt Ideal) ((c : Thread nD τ).loc b))

/-! ## The blocks in their arrays -/

theorem zeroOffsets : (![0, 0] : Fin 2 → Nat) = fun _ => 0 := funext fun a => by fin_cases a <;> rfl

/-- The printed index maps, decided once over the grid: at point t the features', the norm column's and the output's
    block is the t-th along the rows, and the weights' block is the whole array. -/
theorem blockIndex : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of the features' block at point t is row 2000 t + p of the features. -/
theorem emb_features (t : Fin cfg4.N) (p : Fin 2000) (k : Fin 64) (r : Fin 100000) (hr : r.val = 2000 * t.val + p.val) :
    ((cfg4.win 0).blk t).view.emb (ix2 p k) = ix2 r k := by
  obtain ⟨e0, e1, -⟩ := blockIndex t
  funext a; apply Fin.ext
  match a with
  | ⟨0, _⟩ => show win4_0.index t (0 : Fin 2) * 2000 + 1 * p.val = r.val; omega
  | ⟨1, _⟩ => show win4_0.index t (1 : Fin 2) * 64 + 1 * k.val = k.val; omega

/-- Row p of the norm column's block at point t is row 2000 t + p of the column. -/
theorem emb_norm (t : Fin cfg4.N) (p : Fin 2000) (r : Fin 100000) (hr : r.val = 2000 * t.val + p.val) :
    ((cfg4.win 1).blk t).view.emb (ix2 p (0 : Fin 1)) = ix2 r (0 : Fin 1) := by
  obtain ⟨-, -, e0, e1, -⟩ := blockIndex t
  funext a; apply Fin.ext
  match a with
  | ⟨0, _⟩ => show win4_1.index t (0 : Fin 2) * 2000 + 1 * p.val = r.val; omega
  | ⟨1, _⟩ => show win4_1.index t (1 : Fin 2) * 1 + 1 * 0 = 0; omega

/-- The weights' block at any point is the weights. -/
theorem emb_weights (t : Fin cfg4.N) (k : Fin 64) (q : Fin 64) :
    ((cfg4.win 2).blk t).view.emb (ix2 k q) = ix2 k q := by
  obtain ⟨-, -, -, -, e0, e1, -⟩ := blockIndex t
  funext a; apply Fin.ext
  match a with
  | ⟨0, _⟩ => show win4_2.index t (0 : Fin 2) * 64 + 1 * k.val = k.val; omega
  | ⟨1, _⟩ => show win4_2.index t (1 : Fin 2) * 64 + 1 * q.val = q.val; omega

/-- Row p of the output's block at point t is row 2000 t + p of the output. -/
theorem emb_out (t : Fin cfg4.N) (p : Fin 2000) (q : Fin 64) (r : Fin 100000) (hr : r.val = 2000 * t.val + p.val) :
    ((cfg4.win 3).blk t).view.emb (ix2 p q) = ix2 r q := by
  obtain ⟨-, -, -, -, -, -, e0, e1⟩ := blockIndex t
  funext a; apply Fin.ext
  match a with
  | ⟨0, _⟩ => show win4_3.index t (0 : Fin 2) * 2000 + 1 * p.val = r.val; omega
  | ⟨1, _⟩ => show win4_3.index t (1 : Fin 2) * 64 + 1 * q.val = q.val; omega

/-! ## What a point writes back -/

/-- What point t writes back is its block of the projection of the region-entry arrays. -/
theorem flushed_eq (c : Dev nD) (t : Fin cfg4.N) :
    (dat4 (F := Ideal) V c).flushed 3 t = ((cfg4.win 3).blk t).view.read (Elt Ideal)
      (Cert.Spec.proj64 (F := Ideal) (V c main_v32) (V c main_v17) (V c main_arg5)) := by
  show (cfg4.win 3).cut (grid4.coords t) ((dat4 V c).after 3 t) = _
  rw [after4_3]
  unfold out4_3
  rw [View.canon_unit_zero zeroOffsets]
  simp only [View.ld_unit_zero (S := S2000x64) zeroOffsets, View.ld_unit_zero (S := S2000x1) zeroOffsets,
    View.ld_unit_zero (S := S64x64) zeroOffsets]
  funext j
  obtain ⟨p, q, rfl⟩ : ∃ (p : Fin 2000) (q : Fin 64), j = ix2 p q := ⟨j 0, j 1, eq_ix2 j⟩
  have ht : t.val < 50 := by have := t.isLt; have hN : grid4.N = 50 := N_4; exact hN ▸ this
  have hr : 2000 * t.val + p.val < 100000 := by have := p.isLt; omega
  refine (pay_apply _ _ _ p q).trans ?_
  show _ = Cert.Spec.proj64 (F := Ideal) (V c main_v32) (V c main_v17) (V c main_arg5) (((cfg4.win 3).blk t).view.emb (ix2 p q))
  rw [emb_out t p q ⟨2000 * t.val + p.val, hr⟩ rfl, Cert.Spec.proj64_apply]
  refine Finset.sum_congr rfl fun k _ => ?_
  have e0 : iblk4 V c 0 t (ix2 p k) = V c main_v32 (ix2 (⟨2000 * t.val + p.val, hr⟩ : Fin 100000) k) :=
    congrArg (V c main_v32) (emb_features t p k ⟨2000 * t.val + p.val, hr⟩ rfl)
  have e1 : iblk4 V c 1 t (ix2 p (0 : Fin 1)) = V c main_v17 (ix2 (⟨2000 * t.val + p.val, hr⟩ : Fin 100000) (0 : Fin 1)) :=
    congrArg (V c main_v17) (emb_norm t p ⟨2000 * t.val + p.val, hr⟩ rfl)
  have e2 : iblk4 V c 2 t (ix2 k q) = V c main_arg5 (ix2 k q) := congrArg (V c main_arg5) (emb_weights t k q)
  rw [e0, e1, e2]

/-! ## The blocks cover the output -/

/-- An index of the output is in point t's block iff each coordinate is in the block's range on its axis. -/
theorem mem_blk (t : Fin cfg4.N) (i : S100000x64.Idx) :
    i ∈ ((cfg4.win 3).blk t).view.set ↔ ∀ a : Fin 2, win4_3.index t a * S2000x64.size a ≤ (i a).val
      ∧ (i a).val < win4_3.index t a * S2000x64.size a + S2000x64.size a := by
  show i ∈ ((View.whole main_v33).slice (win4_3.rect t)).set ↔ _
  rw [View.set_slice_whole, Rect.mem_set_unit]
  exact Iff.rfl

/-- Row r of the output is in the block of the point r / 2000, and every point writes its block back. -/
theorem cover (i : S100000x64.Idx) :
    ∃ t : Fin cfg4.N, (cfg4.win 3).flush t = true ∧ i ∈ ((cfg4.win 3).blk t).view.set := by
  have hi0 : (i 0).val < 100000 := idx2_lt0 i
  have hi1 : (i 1).val < 64 := idx2_lt1 i
  have hN : grid4.N = 50 := N_4
  have hlt : (i 0).val / 2000 < grid4.N := by omega
  refine ⟨⟨(i 0).val / 2000, hlt⟩, flush4_3 _, ?_⟩
  rw [mem_blk]
  obtain ⟨-, -, -, -, -, -, e0, e1⟩ := blockIndex ⟨(i 0).val / 2000, hlt⟩
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win4_3.index ⟨(i 0).val / 2000, hlt⟩ (1 : Fin 2) * 64 ≤ (i 1).val
      ∧ (i 1).val < win4_3.index ⟨(i 0).val / 2000, hlt⟩ (1 : Fin 2) * 64 + 64
    rw [e1]; omega

/-! ## The array after the region -/

/-- After the scale-and-project region 4 the output array holds, at (r, q), the sum over k of the input's (r, k) times
    the norm column's r times the weights' (k, q): the whole-array projection of the region-entry arrays. -/
theorem array_eq (c : Dev nD) :
    (dat4 (F := Ideal) V c).arrAt 3 cfg4.N = Cert.Spec.proj64 (F := Ideal) (V c main_v32) (V c main_v17) (V c main_arg5) :=
  (dat4 (F := Ideal) V c).arrAt_eq_of_cover 3 _ (fun t _ => flushed_eq V c t) cover

end Cert.KernelIdeal.ProjRegion4

end
-- ==== Proof.PostRegion1.lean ====
import proofs.«401619_j14130442403926_1_alg».proof.Proof.Gen.KernelIdeal.Frame
import proofs.«401619_j14130442403926_1_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PostRegion1

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

/-! ## The body's payload at an index -/

/-- A column of `a` rows broadcast along `b` columns reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The payload at `(p, q)`: the first block's entry times the column's entry of row `p`, plus the row's entry of
    column `q`, against the zero word. -/
theorem pay_apply {F : FTy → Type} [FloatOps F] (x0 : Vec F S2000x64 .f32) (x1 : Vec F S2000x1 .f32) (x2 : Vec F S1x64 .f32)
    (p : Fin 2000) (q : Fin 64) :
    k1_pay1 (F := F) x0 x1 x2 (ix2 p q)
      = FloatOps.maximumf (FloatOps.addf (FloatOps.mulf (x0 (ix2 p q)) (x1 (ix2 p (0 : Fin 1)))) (x2 (ix2 (0 : Fin 1) q)))
          (FloatOps.ofBits .f32 0x00000000#32) := by
  unfold k1_pay1
  show FloatOps.maximumf (FloatOps.addf (FloatOps.mulf (shapeCast S2000x64 x0 shapeCasts_S2000x64_S2000x64 (ix2 p q))
        (broadcastTo S2000x64 (shapeCast S2000x1 x1 shapeCasts_S2000x1_S2000x1) broadcasts_S2000x1_S2000x64 (ix2 p q)))
      (broadcastTo S2000x64 (shapeCast S1x64 x2 shapeCasts_S1x64_S1x64) broadcasts_S1x64_S2000x64 (ix2 p q)))
    (FloatOps.ofBits .f32 0x00000000#32) = _
  rw [shapeCast_self, shapeCast_self, shapeCast_self, broadcastTo_a1_ab_apply, broadcastTo_1b_ab_apply]

-- The TensorCore's buffer contents when the region is entered: any contents.
variable (V : (c : Dev nD) → (b : Ref sig .tc) → Buf (Elt Ideal) ((c : Thread nD τ).loc b))

/-! ## Where each window's block sits -/

theorem zeros2 : (![0, 0] : Fin 2 → Nat) = fun _ => 0 := funext fun a => by fin_cases a <;> rfl

/-- The block index maps over the fifty points: the two row-blocked inputs and the output are at block (t, 0); the bias
    row is at block (0, 0) always. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, q) of the aggregate's block at point t is the aggregate's entry (2000 t + p, q). -/
theorem agg_blk (c : Dev nD) (t : Fin cfg1.N) (p : Fin 2000) (q : Fin 64) (r : Fin 100000)
    (hr : r.val = t.val * 2000 + p.val) :
    iblk1 (F := Ideal) V c 0 t (ix2 p q) = V c main_v23 (ix2 r q) := by
  obtain ⟨e0, e1, -⟩ := idx_facts t
  show V c main_v23 (((cfg1.win 0).blk t).view.emb (ix2 p q)) = V c main_v23 (ix2 r q)
  refine congrArg _ (funext fun a => Fin.ext ?_)
  match a with
  | ⟨0, _⟩ => show win1_0.index t (0 : Fin 2) * 2000 + 1 * p.val = r.val; omega
  | ⟨1, _⟩ => show win1_0.index t (1 : Fin 2) * 64 + 1 * q.val = q.val; omega

/-- Entry (p, 0) of the norm column's block at point t is the column's entry (2000 t + p, 0). -/
theorem norm_blk (c : Dev nD) (t : Fin cfg1.N) (p : Fin 2000) (r : Fin 100000)
    (hr : r.val = t.val * 2000 + p.val) :
    iblk1 (F := Ideal) V c 1 t (ix2 p (0 : Fin 1)) = V c main_v18 (ix2 r (0 : Fin 1)) := by
  obtain ⟨-, -, e0, e1, -⟩ := idx_facts t
  show V c main_v18 (((cfg1.win 1).blk t).view.emb (ix2 p (0 : Fin 1))) = V c main_v18 (ix2 r (0 : Fin 1))
  refine congrArg _ (funext fun a => Fin.ext ?_)
  match a with
  | ⟨0, _⟩ => show win1_1.index t (0 : Fin 2) * 2000 + 1 * p.val = r.val; omega
  | ⟨1, _⟩ => show win1_1.index t (1 : Fin 2) * 1 + 1 * 0 = 0; omega

/-- The bias row's block is the whole row at every point. -/
theorem bias_blk (c : Dev nD) (t : Fin cfg1.N) (q : Fin 64) :
    iblk1 (F := Ideal) V c 2 t (ix2 (0 : Fin 1) q) = V c main_v24 (ix2 (0 : Fin 1) q) := by
  obtain ⟨-, -, -, -, e0, e1, -⟩ := idx_facts t
  show V c main_v24 (((cfg1.win 2).blk t).view.emb (ix2 (0 : Fin 1) q)) = V c main_v24 (ix2 (0 : Fin 1) q)
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * q.val = q.val; omega

/-- Entry (p, q) of the output's block at point t sits in the output array at (2000 t + p, q). -/
theorem out_emb (t : Fin cfg1.N) (p : Fin 2000) (q : Fin 64) (r : Fin 100000)
    (hr : r.val = t.val * 2000 + p.val) :
    ((cfg1.win 3).blk t).view.emb (ix2 p q) = (ix2 r q : S100000x64.Idx) := by
  obtain ⟨-, -, -, -, -, -, e0, e1⟩ := idx_facts t
  refine funext fun a => Fin.ext ?_
  match a with
  | ⟨0, _⟩ => show win1_3.index t (0 : Fin 2) * 2000 + 1 * p.val = r.val; omega
  | ⟨1, _⟩ => show win1_3.index t (1 : Fin 2) * 64 + 1 * q.val = q.val; omega

/-! ## What a point writes back, and the whole array -/

/-- What point t writes back is block t of the whole-array post-processing of the region-entry arrays. -/
theorem flushed_eq (c : Dev nD) (t : Fin cfg1.N) :
    (dat1 (F := Ideal) V c).flushed 3 t
      = ((cfg1.win 3).blk t).view.read (Elt Ideal)
          (Cert.Spec.postRow (F := Ideal) (V c main_v23) (V c main_v18) (V c main_v24)) := by
  show (cfg1.win 3).cut (grid1.coords t) ((dat1 V c).after 3 t) = _
  rw [after1_3]
  unfold out1_3
  rw [View.canon_unit_zero zeros2]
  simp only [View.ld_unit_zero (S := S2000x64) zeros2, View.ld_unit_zero (S := S2000x1) zeros2,
    View.ld_unit_zero (S := S1x64) zeros2]
  refine funext fun (j : S2000x64.Idx) => ?_
  obtain ⟨p, q, rfl⟩ : ∃ (p : Fin 2000) (q : Fin 64), j = ix2 p q := ⟨j 0, j 1, eq_ix2 j⟩
  have hN : cfg1.N = 50 := N_1
  have ht : t.val < cfg1.N := t.isLt
  have hp : p.val < 2000 := p.isLt
  have hr : t.val * 2000 + p.val < 100000 := by omega
  show k1_pay1 (F := Ideal) (iblk1 V c 0 t) (iblk1 V c 1 t) (iblk1 V c 2 t) (ix2 p q)
      = Cert.Spec.postRow (F := Ideal) (V c main_v23) (V c main_v18) (V c main_v24)
          (((cfg1.win 3).blk t).view.emb (ix2 p q))
  rw [out_emb t p q ⟨t.val * 2000 + p.val, hr⟩ rfl, Cert.Spec.postRow_apply]
  refine (pay_apply (iblk1 V c 0 t) (iblk1 V c 1 t) (iblk1 V c 2 t) p q).trans ?_
  rw [agg_blk V c t p q ⟨t.val * 2000 + p.val, hr⟩ rfl, norm_blk V c t p ⟨t.val * 2000 + p.val, hr⟩ rfl,
    bias_blk V c t q]

/-- An index of the output array is in point t's block iff each coordinate is in the block's range on its axis. -/
theorem mem_blk (t : Fin cfg1.N) (i : S100000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v25).slice (win1_3.rect t)).set ↔ _
  rw [View.set_slice_whole, Rect.mem_set_unit]
  exact Iff.rfl

/-- Every index (r, q) of the output array is in the block of the point r / 2000, and every point writes back. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := N_1
  have hlt : (i 0).val / 2000 < cfg1.N := by omega
  obtain ⟨-, -, -, -, -, -, e0, e1⟩ := idx_facts ⟨(i 0).val / 2000, hlt⟩
  refine ⟨⟨(i 0).val / 2000, hlt⟩, flush1_3 _, ?_⟩
  rw [mem_blk]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    have e0' : win1_3.index ⟨(i 0).val / 2000, hlt⟩ (0 : Fin 2) = (i 0).val / 2000 := e0
    omega
  | ⟨1, _⟩ =>
    show win1_3.index ⟨(i 0).val / 2000, hlt⟩ (1 : Fin 2) * 64 ≤ (i 1).val
      ∧ (i 1).val < win1_3.index ⟨(i 0).val / 2000, hlt⟩ (1 : Fin 2) * 64 + 64
    omega

/-- After the post-processing region 1 the output array holds, at (r, q), the aggregate's (r, q) times the norm
    column's r, plus the bias row's q, clipped at zero: the whole-array post-processing of the region-entry arrays. -/
theorem array_eq (c : Dev nD) :
    (dat1 (F := Ideal) V c).arrAt 3 cfg1.N = Cert.Spec.postRow (F := Ideal) (V c main_v23) (V c main_v18) (V c main_v24) :=
  (dat1 (F := Ideal) V c).arrAt_eq_of_cover 3 _ (fun t _ => flushed_eq V c t) cover

end Cert.KernelIdeal.PostRegion1

end
-- ==== Proof.PostRegion3.lean ====
import proofs.«401619_j14130442403926_1_alg».proof.Proof.Gen.KernelIdeal.Frame
import proofs.«401619_j14130442403926_1_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PostRegion3

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

/-! ## The body's payload at an index -/

/-- A column of `a` rows broadcast along `b` columns reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The payload at `(p, q)`: the first block's entry times the column's entry of row `p`, plus the row's entry of
    column `q`, against the zero word. -/
theorem pay_apply {F : FTy → Type} [FloatOps F] (x0 : Vec F S2000x64 .f32) (x1 : Vec F S2000x1 .f32) (x2 : Vec F S1x64 .f32)
    (p : Fin 2000) (q : Fin 64) :
    k3_pay1 (F := F) x0 x1 x2 (ix2 p q)
      = FloatOps.maximumf (FloatOps.addf (FloatOps.mulf (x0 (ix2 p q)) (x1 (ix2 p (0 : Fin 1)))) (x2 (ix2 (0 : Fin 1) q)))
          (FloatOps.ofBits .f32 0x00000000#32) := by
  unfold k3_pay1
  show FloatOps.maximumf (FloatOps.addf (FloatOps.mulf (shapeCast S2000x64 x0 shapeCasts_S2000x64_S2000x64 (ix2 p q))
        (broadcastTo S2000x64 (shapeCast S2000x1 x1 shapeCasts_S2000x1_S2000x1) broadcasts_S2000x1_S2000x64 (ix2 p q)))
      (broadcastTo S2000x64 (shapeCast S1x64 x2 shapeCasts_S1x64_S1x64) broadcasts_S1x64_S2000x64 (ix2 p q)))
    (FloatOps.ofBits .f32 0x00000000#32) = _
  rw [shapeCast_self, shapeCast_self, shapeCast_self, broadcastTo_a1_ab_apply, broadcastTo_1b_ab_apply]

-- The TensorCore's buffer contents when the region is entered: any contents.
variable (V : (c : Dev nD) → (b : Ref sig .tc) → Buf (Elt Ideal) ((c : Thread nD τ).loc b))

/-! ## Where each window's block sits -/

theorem zeros2 : (![0, 0] : Fin 2 → Nat) = fun _ => 0 := funext fun a => by fin_cases a <;> rfl

/-- The block index maps over the fifty points: the two row-blocked inputs and the output are at block (t, 0); the bias
    row is at block (0, 0) always. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry (p, q) of the aggregate's block at point t is the aggregate's entry (2000 t + p, q). -/
theorem agg_blk (c : Dev nD) (t : Fin cfg3.N) (p : Fin 2000) (q : Fin 64) (r : Fin 100000)
    (hr : r.val = t.val * 2000 + p.val) :
    iblk3 (F := Ideal) V c 0 t (ix2 p q) = V c main_v30 (ix2 r q) := by
  obtain ⟨e0, e1, -⟩ := idx_facts t
  show V c main_v30 (((cfg3.win 0).blk t).view.emb (ix2 p q)) = V c main_v30 (ix2 r q)
  refine congrArg _ (funext fun a => Fin.ext ?_)
  match a with
  | ⟨0, _⟩ => show win3_0.index t (0 : Fin 2) * 2000 + 1 * p.val = r.val; omega
  | ⟨1, _⟩ => show win3_0.index t (1 : Fin 2) * 64 + 1 * q.val = q.val; omega

/-- Entry (p, 0) of the norm column's block at point t is the column's entry (2000 t + p, 0). -/
theorem norm_blk (c : Dev nD) (t : Fin cfg3.N) (p : Fin 2000) (r : Fin 100000)
    (hr : r.val = t.val * 2000 + p.val) :
    iblk3 (F := Ideal) V c 1 t (ix2 p (0 : Fin 1)) = V c main_v18 (ix2 r (0 : Fin 1)) := by
  obtain ⟨-, -, e0, e1, -⟩ := idx_facts t
  show V c main_v18 (((cfg3.win 1).blk t).view.emb (ix2 p (0 : Fin 1))) = V c main_v18 (ix2 r (0 : Fin 1))
  refine congrArg _ (funext fun a => Fin.ext ?_)
  match a with
  | ⟨0, _⟩ => show win3_1.index t (0 : Fin 2) * 2000 + 1 * p.val = r.val; omega
  | ⟨1, _⟩ => show win3_1.index t (1 : Fin 2) * 1 + 1 * 0 = 0; omega

/-- The bias row's block is the whole row at every point. -/
theorem bias_blk (c : Dev nD) (t : Fin cfg3.N) (q : Fin 64) :
    iblk3 (F := Ideal) V c 2 t (ix2 (0 : Fin 1) q) = V c main_v31 (ix2 (0 : Fin 1) q) := by
  obtain ⟨-, -, -, -, e0, e1, -⟩ := idx_facts t
  show V c main_v31 (((cfg3.win 2).blk t).view.emb (ix2 (0 : Fin 1) q)) = V c main_v31 (ix2 (0 : Fin 1) q)
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * q.val = q.val; omega

/-- Entry (p, q) of the output's block at point t sits in the output array at (2000 t + p, q). -/
theorem out_emb (t : Fin cfg3.N) (p : Fin 2000) (q : Fin 64) (r : Fin 100000)
    (hr : r.val = t.val * 2000 + p.val) :
    ((cfg3.win 3).blk t).view.emb (ix2 p q) = (ix2 r q : S100000x64.Idx) := by
  obtain ⟨-, -, -, -, -, -, e0, e1⟩ := idx_facts t
  refine funext fun a => Fin.ext ?_
  match a with
  | ⟨0, _⟩ => show win3_3.index t (0 : Fin 2) * 2000 + 1 * p.val = r.val; omega
  | ⟨1, _⟩ => show win3_3.index t (1 : Fin 2) * 64 + 1 * q.val = q.val; omega

/-! ## What a point writes back, and the whole array -/

/-- What point t writes back is block t of the whole-array post-processing of the region-entry arrays. -/
theorem flushed_eq (c : Dev nD) (t : Fin cfg3.N) :
    (dat3 (F := Ideal) V c).flushed 3 t
      = ((cfg3.win 3).blk t).view.read (Elt Ideal)
          (Cert.Spec.postRow (F := Ideal) (V c main_v30) (V c main_v18) (V c main_v31)) := by
  show (cfg3.win 3).cut (grid3.coords t) ((dat3 V c).after 3 t) = _
  rw [after3_3]
  unfold out3_3
  rw [View.canon_unit_zero zeros2]
  simp only [View.ld_unit_zero (S := S2000x64) zeros2, View.ld_unit_zero (S := S2000x1) zeros2,
    View.ld_unit_zero (S := S1x64) zeros2]
  refine funext fun (j : S2000x64.Idx) => ?_
  obtain ⟨p, q, rfl⟩ : ∃ (p : Fin 2000) (q : Fin 64), j = ix2 p q := ⟨j 0, j 1, eq_ix2 j⟩
  have hN : cfg3.N = 50 := N_3
  have ht : t.val < cfg3.N := t.isLt
  have hp : p.val < 2000 := p.isLt
  have hr : t.val * 2000 + p.val < 100000 := by omega
  show k3_pay1 (F := Ideal) (iblk3 V c 0 t) (iblk3 V c 1 t) (iblk3 V c 2 t) (ix2 p q)
      = Cert.Spec.postRow (F := Ideal) (V c main_v30) (V c main_v18) (V c main_v31)
          (((cfg3.win 3).blk t).view.emb (ix2 p q))
  rw [out_emb t p q ⟨t.val * 2000 + p.val, hr⟩ rfl, Cert.Spec.postRow_apply]
  refine (pay_apply (iblk3 V c 0 t) (iblk3 V c 1 t) (iblk3 V c 2 t) p q).trans ?_
  rw [agg_blk V c t p q ⟨t.val * 2000 + p.val, hr⟩ rfl, norm_blk V c t p ⟨t.val * 2000 + p.val, hr⟩ rfl,
    bias_blk V c t q]

/-- An index of the output array is in point t's block iff each coordinate is in the block's range on its axis. -/
theorem mem_blk (t : Fin cfg3.N) (i : S100000x64.Idx) :
    i ∈ ((cfg3.win 3).blk t).view.set ↔ ∀ a : Fin 2, win3_3.index t a * S2000x64.size a ≤ (i a).val
      ∧ (i a).val < win3_3.index t a * S2000x64.size a + S2000x64.size a := by
  show i ∈ ((View.whole main_v32).slice (win3_3.rect t)).set ↔ _
  rw [View.set_slice_whole, Rect.mem_set_unit]
  exact Iff.rfl

/-- Every index (r, q) of the output array is in the block of the point r / 2000, and every point writes back. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 50 := N_3
  have hlt : (i 0).val / 2000 < cfg3.N := by omega
  obtain ⟨-, -, -, -, -, -, e0, e1⟩ := idx_facts ⟨(i 0).val / 2000, hlt⟩
  refine ⟨⟨(i 0).val / 2000, hlt⟩, flush3_3 _, ?_⟩
  rw [mem_blk]
  intro a
  match a with
  | ⟨0, _⟩ =>
    show win3_3.index ⟨(i 0).val / 2000, hlt⟩ (0 : Fin 2) * 2000 ≤ (i 0).val
      ∧ (i 0).val < win3_3.index ⟨(i 0).val / 2000, hlt⟩ (0 : Fin 2) * 2000 + 2000
    have e0' : win3_3.index ⟨(i 0).val / 2000, hlt⟩ (0 : Fin 2) = (i 0).val / 2000 := e0
    omega
  | ⟨1, _⟩ =>
    show win3_3.index ⟨(i 0).val / 2000, hlt⟩ (1 : Fin 2) * 64 ≤ (i 1).val
      ∧ (i 1).val < win3_3.index ⟨(i 0).val / 2000, hlt⟩ (1 : Fin 2) * 64 + 64
    omega

/-- After the post-processing region 3 the output array holds, at (r, q), the aggregate's (r, q) times the norm
    column's r, plus the bias row's q, clipped at zero: the whole-array post-processing of the region-entry arrays. -/
theorem array_eq (c : Dev nD) :
    (dat3 (F := Ideal) V c).arrAt 3 cfg3.N = Cert.Spec.postRow (F := Ideal) (V c main_v30) (V c main_v18) (V c main_v31) :=
  (dat3 (F := Ideal) V c).arrAt_eq_of_cover 3 _ (fun t _ => flushed_eq V c t) cover

end Cert.KernelIdeal.PostRegion3

end
-- ==== Proof.PostRegion5.lean ====
import proofs.«401619_j14130442403926_1_alg».proof.Proof.Gen.KernelIdeal.Frame
import proofs.«401619_j14130442403926_1_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PostRegion5

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

/-! ## The body's payload at an index -/

/-- A column of `a` rows broadcast along `b` columns reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The payload at `(p, q)`: the first block's entry times the column's entry of row `p`, plus the row's entry of
    column `q`, against the zero word. -/
theorem pay_apply {F : FTy → Type} [FloatOps F] (x0 : Vec F S2000x64 .f32) (x1 : Vec F S2000x1 .f32) (x2 : Vec F S1x64 .f32)
    (p : Fin 2000) (q : Fin 64) :
    k5_pay1 (F := F) x0 x1 x2 (ix2 p q)
      = FloatOps.maximumf (FloatOps.addf (FloatOps.mulf (x0 (ix2 p q)) (x1 (ix2 p (0 : Fin 1)))) (x2 (ix2 (0 : Fin 1) q)))
          (FloatOps.ofBits .f32 0x00000000#32) := by
  unfold k5_pay1
  show FloatOps.maximumf (FloatOps.addf (FloatOps.mulf (shapeCast S2000x64 x0 shapeCasts_S2000x64_S2000x64 (ix2 p q))
        (broadcastTo S2000x64 (shapeCast S2000x1 x1 shapeCasts_S2000x1_S2000x1) broadcasts_S2000x1_S2000x64 (ix2 p q)))
      (broadcastTo S2000x64 (shapeCast S1x64 x2 shapeCasts_S1x64_S1x64) broadcasts_S1x64_S2000x64 (ix2 p q)))
    (FloatOps.ofBits .f32 0x00000000#32) = _
  rw [shapeCast_self, shapeCast_self, shapeCast_self, broadcastTo_a1_ab_apply, broadcastTo_1b_ab_apply]

-- The TensorCore's buffer contents when the region is entered: any contents.
variable (V : (c : Dev nD) → (b : Ref sig .tc) → Buf (Elt Ideal) ((c : Thread nD τ).loc b))

/-! ## Where each window's block sits -/

theorem zeros2 : (![0, 0] : Fin 2 → Nat) = fun _ => 0 := funext fun a => by fin_cases a <;> rfl

/-- The block index maps over the fifty points: the two row-blocked inputs and the output are at block (t, 0); the bias
    row is at block (0, 0) always. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Entry (p, q) of the aggregate's block at point t is the aggregate's entry (2000 t + p, q). -/
theorem agg_blk (c : Dev nD) (t : Fin cfg5.N) (p : Fin 2000) (q : Fin 64) (r : Fin 100000)
    (hr : r.val = t.val * 2000 + p.val) :
    iblk5 (F := Ideal) V c 0 t (ix2 p q) = V c main_v37 (ix2 r q) := by
  obtain ⟨e0, e1, -⟩ := idx_facts t
  show V c main_v37 (((cfg5.win 0).blk t).view.emb (ix2 p q)) = V c main_v37 (ix2 r q)
  refine congrArg _ (funext fun a => Fin.ext ?_)
  match a with
  | ⟨0, _⟩ => show win5_0.index t (0 : Fin 2) * 2000 + 1 * p.val = r.val; omega
  | ⟨1, _⟩ => show win5_0.index t (1 : Fin 2) * 64 + 1 * q.val = q.val; omega

/-- Entry (p, 0) of the norm column's block at point t is the column's entry (2000 t + p, 0). -/
theorem norm_blk (c : Dev nD) (t : Fin cfg5.N) (p : Fin 2000) (r : Fin 100000)
    (hr : r.val = t.val * 2000 + p.val) :
    iblk5 (F := Ideal) V c 1 t (ix2 p (0 : Fin 1)) = V c main_v18 (ix2 r (0 : Fin 1)) := by
  obtain ⟨-, -, e0, e1, -⟩ := idx_facts t
  show V c main_v18 (((cfg5.win 1).blk t).view.emb (ix2 p (0 : Fin 1))) = V c main_v18 (ix2 r (0 : Fin 1))
  refine congrArg _ (funext fun a => Fin.ext ?_)
  match a with
  | ⟨0, _⟩ => show win5_1.index t (0 : Fin 2) * 2000 + 1 * p.val = r.val; omega
  | ⟨1, _⟩ => show win5_1.index t (1 : Fin 2) * 1 + 1 * 0 = 0; omega

/-- The bias row's block is the whole row at every point. -/
theorem bias_blk (c : Dev nD) (t : Fin cfg5.N) (q : Fin 64) :
    iblk5 (F := Ideal) V c 2 t (ix2 (0 : Fin 1) q) = V c main_v38 (ix2 (0 : Fin 1) q) := by
  obtain ⟨-, -, -, -, e0, e1, -⟩ := idx_facts t
  show V c main_v38 (((cfg5.win 2).blk t).view.emb (ix2 (0 : Fin 1) q)) = V c main_v38 (ix2 (0 : Fin 1) q)
  refine congrArg _ (funext fun a => Fin.ext ?_)
  match a with
  | ⟨0, _⟩ => show win5_2.index t (0 : Fin 2) * 1 + 1 * 0 = 0; omega
  | ⟨1, _⟩ => show win5_2.index t (1 : Fin 2) * 64 + 1 * q.val = q.val; omega

/-- Entry (p, q) of the output's block at point t sits in the output array at (2000 t + p, q). -/
theorem out_emb (t : Fin cfg5.N) (p : Fin 2000) (q : Fin 64) (r : Fin 100000)
    (hr : r.val = t.val * 2000 + p.val) :
    ((cfg5.win 3).blk t).view.emb (ix2 p q) = (ix2 r q : S100000x64.Idx) := by
  obtain ⟨-, -, -, -, -, -, e0, e1⟩ := idx_facts t
  refine funext fun a => Fin.ext ?_
  match a with
  | ⟨0, _⟩ => show win5_3.index t (0 : Fin 2) * 2000 + 1 * p.val = r.val; omega
  | ⟨1, _⟩ => show win5_3.index t (1 : Fin 2) * 64 + 1 * q.val = q.val; omega

/-! ## What a point writes back, and the whole array -/

/-- What point t writes back is block t of the whole-array post-processing of the region-entry arrays. -/
theorem flushed_eq (c : Dev nD) (t : Fin cfg5.N) :
    (dat5 (F := Ideal) V c).flushed 3 t
      = ((cfg5.win 3).blk t).view.read (Elt Ideal)
          (Cert.Spec.postRow (F := Ideal) (V c main_v37) (V c main_v18) (V c main_v38)) := by
  show (cfg5.win 3).cut (grid5.coords t) ((dat5 V c).after 3 t) = _
  rw [after5_3]
  unfold out5_3
  rw [View.canon_unit_zero zeros2]
  simp only [View.ld_unit_zero (S := S2000x64) zeros2, View.ld_unit_zero (S := S2000x1) zeros2,
    View.ld_unit_zero (S := S1x64) zeros2]
  refine funext fun (j : S2000x64.Idx) => ?_
  obtain ⟨p, q, rfl⟩ : ∃ (p : Fin 2000) (q : Fin 64), j = ix2 p q := ⟨j 0, j 1, eq_ix2 j⟩
  have hN : cfg5.N = 50 := N_5
  have ht : t.val < cfg5.N := t.isLt
  have hp : p.val < 2000 := p.isLt
  have hr : t.val * 2000 + p.val < 100000 := by omega
  show k5_pay1 (F := Ideal) (iblk5 V c 0 t) (iblk5 V c 1 t) (iblk5 V c 2 t) (ix2 p q)
      = Cert.Spec.postRow (F := Ideal) (V c main_v37) (V c main_v18) (V c main_v38)
          (((cfg5.win 3).blk t).view.emb (ix2 p q))
  rw [out_emb t p q ⟨t.val * 2000 + p.val, hr⟩ rfl, Cert.Spec.postRow_apply]
  refine (pay_apply (iblk5 V c 0 t) (iblk5 V c 1 t) (iblk5 V c 2 t) p q).trans ?_
  rw [agg_blk V c t p q ⟨t.val * 2000 + p.val, hr⟩ rfl, norm_blk V c t p ⟨t.val * 2000 + p.val, hr⟩ rfl,
    bias_blk V c t q]

/-- An index of the output array is in point t's block iff each coordinate is in the block's range on its axis. -/
theorem mem_blk (t : Fin cfg5.N) (i : S100000x64.Idx) :
    i ∈ ((cfg5.win 3).blk t).view.set ↔ ∀ a : Fin 2, win5_3.index t a * S2000x64.size a ≤ (i a).val
      ∧ (i a).val < win5_3.index t a * S2000x64.size a + S2000x64.size a := by
  show i ∈ ((View.whole main_v39).slice (win5_3.rect t)).set ↔ _
  rw [View.set_slice_whole, Rect.mem_set_unit]
  exact Iff.rfl

/-- Every index (r, q) of the output array is in the block of the point r / 2000, and every point writes back. -/
theorem cover (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 50 := N_5
  have hlt : (i 0).val / 2000 < cfg5.N := by omega
  obtain ⟨-, -, -, -, -, -, e0, e1⟩ := idx_facts ⟨(i 0).val / 2000, hlt⟩
  refine ⟨⟨(i 0).val / 2000, hlt⟩, flush5_3 _, ?_⟩
  rw [mem_blk]
  intro a
  match a with
  | ⟨0, _⟩ =>
    show win5_3.index ⟨(i 0).val / 2000, hlt⟩ (0 : Fin 2) * 2000 ≤ (i 0).val
      ∧ (i 0).val < win5_3.index ⟨(i 0).val / 2000, hlt⟩ (0 : Fin 2) * 2000 + 2000
    have e0' : win5_3.index ⟨(i 0).val / 2000, hlt⟩ (0 : Fin 2) = (i 0).val / 2000 := e0
    omega
  | ⟨1, _⟩ =>
    show win5_3.index ⟨(i 0).val / 2000, hlt⟩ (1 : Fin 2) * 64 ≤ (i 1).val
      ∧ (i 1).val < win5_3.index ⟨(i 0).val / 2000, hlt⟩ (1 : Fin 2) * 64 + 64
    omega

/-- After the post-processing region 5 the output array holds, at (r, q), the aggregate's (r, q) times the norm
    column's r, plus the bias row's q, clipped at zero: the whole-array post-processing of the region-entry arrays. -/
theorem array_eq (c : Dev nD) :
    (dat5 (F := Ideal) V c).arrAt 3 cfg5.N = Cert.Spec.postRow (F := Ideal) (V c main_v37) (V c main_v18) (V c main_v38) :=
  (dat5 (F := Ideal) V c).arrAt_eq_of_cover 3 _ (fun t _ => flushed_eq V c t) cover

end Cert.KernelIdeal.PostRegion5

end
-- ==== Proof.Chain.lean ====
/-
  The kernel's result is the three-layer network of its arguments.

  Walking @main's boundaries from the launch to the return: the degree-norm columns are the reference's; each
  scale-and-project region leaves the projection of what it found; under the precondition every source index lies in
  -100000 … 99999, so the rows taken in fill mode are the rows gathered at the wrapped indices, as the reference
  gathers them; their sum into the destinations is the reference's scatter-add; each post-processing region leaves
  the post-processing of what it found, the bias row being the reference's. Composed, the last region's output array
  is `Spec.network` of the launch contents of the nine arguments.
-/
import proofs.«401619_j14130442403926_1_alg».proof.Defs
import proofs.«401619_j14130442403926_1_alg».proof.Proof.Gen.Pre_finite_inputs
import proofs.«401619_j14130442403926_1_alg».proof.Proof.ChainKeep
import proofs.«401619_j14130442403926_1_alg».proof.Proof.ChainHost
import proofs.«401619_j14130442403926_1_alg».proof.Proof.ChainTake1
import proofs.«401619_j14130442403926_1_alg».proof.Proof.ChainTake2
import proofs.«401619_j14130442403926_1_alg».proof.Proof.ChainTake3
import proofs.«401619_j14130442403926_1_alg».proof.Proof.ProjRegion0
import proofs.«401619_j14130442403926_1_alg».proof.Proof.ProjRegion2
import proofs.«401619_j14130442403926_1_alg».proof.Proof.ProjRegion4
import proofs.«401619_j14130442403926_1_alg».proof.Proof.PostRegion1
import proofs.«401619_j14130442403926_1_alg».proof.Proof.PostRegion3
import proofs.«401619_j14130442403926_1_alg».proof.Proof.PostRegion5

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

set_option maxHeartbeats 1000000 in
/-- Under the precondition, the result buffer at the return holds the network of the arguments' launch contents. -/
theorem result_eq (hpre : Cert.Pre_KernelIdeal m) (c : Dev nD) :
    W17 m ρ c (Proc.devRef .tc main_v39)
      = Cert.Spec.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have hp := hpre c
  -- the degree norms, and where they are read later
  have e17 : W5 m ρ c (Proc.devRef .tc main_v17) = (Cert.Spec.normCol (F := Ideal) (m ((c.tc : Thread nD τ).loc main_arg7))) := prelude_ns m ρ c
  have e18 : W5 m ρ c (Proc.devRef .tc main_v18) = (Cert.Spec.normCol (F := Ideal) (m ((c.tc : Thread nD τ).loc main_arg8))) := prelude_nd m ρ c
  -- layer 1
  have p0 : W6 m ρ c (Proc.devRef .tc main_v19) = Cert.Spec.proj128 (F := Ideal) (m ((c.tc : Thread nD τ).loc main_arg0)) (Cert.Spec.normCol (F := Ideal) (m ((c.tc : Thread nD τ).loc main_arg7))) (m ((c.tc : Thread nD τ).loc main_arg1)) := by
    refine ((W6_arr m ρ c 3).trans (ProjRegion0.array_eq (V5 m ρ) c)).trans ?_
    show Cert.Spec.proj128 (F := Ideal) (W5 m ρ c (Proc.devRef .tc main_arg0)) (W5 m ρ c (Proc.devRef .tc main_v17)) (W5 m ρ c (Proc.devRef .tc main_arg1)) = _
    rw [untouched_arg0.at5 c, e17, untouched_arg1.at5 c]
  have t0 := take1 m ρ c
  rw [p0, untouched_arg7.at6 c, TakeRows.takeRows_eq_gather _ _ _ _ _ _ _ _ _ hp] at t0
  have g0 : W8 m ρ c (Proc.devRef .tc main_v23)
      = Cert.Spec.gatherScatter (F := Ideal) (Cert.Spec.proj128 (F := Ideal) (m ((c.tc : Thread nD τ).loc main_arg0)) (Cert.Spec.normCol (F := Ideal) (m ((c.tc : Thread nD τ).loc main_arg7))) (m ((c.tc : Thread nD τ).loc main_arg1))) (Cert.Spec.srcIndex (F := Ideal) (m ((c.tc : Thread nD τ).loc main_arg7))) (Cert.Spec.dstIndex (F := Ideal) (m ((c.tc : Thread nD τ).loc main_arg8))) := by
    rw [agg1 m ρ c, t0, untouched_arg8.at7 c]; rfl
  have b0 : W8 m ρ c (Proc.devRef .tc main_v24) = Cert.Spec.biasRow (F := Ideal) (m ((c.tc : Thread nD τ).loc main_arg2)) := by
    rw [bias1 m ρ c, untouched_arg2.at7 c, reshape_eq_biasRow]
  have n1 : W8 m ρ c (Proc.devRef .tc main_v18) = (Cert.Spec.normCol (F := Ideal) (m ((c.tc : Thread nD τ).loc main_arg8))) := (kept_v18.at8 c).trans e18
  have h1 := (W9_arr m ρ c 3).trans (PostRegion1.array_eq (V8 m ρ) c)
  change W9 m ρ c (Proc.devRef .tc main_v25) = Cert.Spec.postRow (F := Ideal) (W8 m ρ c (Proc.devRef .tc main_v23)) (W8 m ρ c (Proc.devRef .tc main_v18)) (W8 m ρ c (Proc.devRef .tc main_v24)) at h1
  rw [g0, n1, b0] at h1
  -- layer 2
  have s1 : W9 m ρ c (Proc.devRef .tc main_v17) = (Cert.Spec.normCol (F := Ideal) (m ((c.tc : Thread nD τ).loc main_arg7))) := (kept_v17.at9 c).trans e17
  have p1 := (W10_arr m ρ c 3).trans (ProjRegion2.array_eq (V9 m ρ) c)
  change W10 m ρ c (Proc.devRef .tc main_v26) = Cert.Spec.proj64 (F := Ideal) (W9 m ρ c (Proc.devRef .tc main_v25)) (W9 m ρ c (Proc.devRef .tc main_v17)) (W9 m ρ c (Proc.devRef .tc main_arg3)) at p1
  rw [h1, s1, untouched_arg3.at9 c] at p1
  have t1 := take2 m ρ c
  rw [p1, untouched_arg7.at10 c, TakeRows.takeRows_eq_gather _ _ _ _ _ _ _ _ _ hp] at t1
  have g1 := agg2 m ρ c
  rw [t1, untouched_arg8.at11 c] at g1
  have b1 : W12 m ρ c (Proc.devRef .tc main_v31) = Cert.Spec.biasRow (F := Ideal) (m ((c.tc : Thread nD τ).loc main_arg4)) := by
    rw [bias2 m ρ c, untouched_arg4.at11 c, reshape_eq_biasRow]
  have n2 : W12 m ρ c (Proc.devRef .tc main_v18) = (Cert.Spec.normCol (F := Ideal) (m ((c.tc : Thread nD τ).loc main_arg8))) := (kept_v18.at12 c).trans e18
  have h2 := (W13_arr m ρ c 3).trans (PostRegion3.array_eq (V12 m ρ) c)
  change W13 m ρ c (Proc.devRef .tc main_v32) = Cert.Spec.postRow (F := Ideal) (W12 m ρ c (Proc.devRef .tc main_v30)) (W12 m ρ c (Proc.devRef .tc main_v18)) (W12 m ρ c (Proc.devRef .tc main_v31)) at h2
  rw [g1, n2, b1] at h2
  -- layer 3
  have s2 : W13 m ρ c (Proc.devRef .tc main_v17) = (Cert.Spec.normCol (F := Ideal) (m ((c.tc : Thread nD τ).loc main_arg7))) := (kept_v17.at13 c).trans e17
  have p2 := (W14_arr m ρ c 3).trans (ProjRegion4.array_eq (V13 m ρ) c)
  change W14 m ρ c (Proc.devRef .tc main_v33) = Cert.Spec.proj64 (F := Ideal) (W13 m ρ c (Proc.devRef .tc main_v32)) (W13 m ρ c (Proc.devRef .tc main_v17)) (W13 m ρ c (Proc.devRef .tc main_arg5)) at p2
  rw [h2, s2, untouched_arg5.at13 c] at p2
  have t2 := take3 m ρ c
  rw [p2, untouched_arg7.at14 c, TakeRows.takeRows_eq_gather _ _ _ _ _ _ _ _ _ hp] at t2
  have g2 := agg3 m ρ c
  rw [t2, untouched_arg8.at15 c] at g2
  have b2 : W16 m ρ c (Proc.devRef .tc main_v38) = Cert.Spec.biasRow (F := Ideal) (m ((c.tc : Thread nD τ).loc main_arg6)) := by
    rw [bias3 m ρ c, untouched_arg6.at15 c, reshape_eq_biasRow]
  have n3 : W16 m ρ c (Proc.devRef .tc main_v18) = (Cert.Spec.normCol (F := Ideal) (m ((c.tc : Thread nD τ).loc main_arg8))) := (kept_v18.at16 c).trans e18
  have h3 := (W17_arr m ρ c 3).trans (PostRegion5.array_eq (V16 m ρ) c)
  change W17 m ρ c (Proc.devRef .tc main_v39) = Cert.Spec.postRow (F := Ideal) (W16 m ρ c (Proc.devRef .tc main_v37)) (W16 m ρ c (Proc.devRef .tc main_v18)) (W16 m ρ c (Proc.devRef .tc main_v38)) at h3
  rw [g2, n3, b2] at h3
  exact h3

end Cert.KernelIdeal.Chain

end
-- ==== Proof.lean ====
/-
  The certificate of a three-layer graph convolution: a Pallas kernel against its jnp reference.

  Each layer is `relu (D_in^{-1/2} · A · D_out^{-1/2} · h · W + b)` over a graph of 100000 nodes and 1600000 edges
  given by their source and destination lists. The kernel computes the two dense steps of a layer in pallas_calls
  tiled over 2000-row blocks — scaling the rows by the out-degree norms and multiplying by the weights (in bfloat16,
  which is the identity over the reals), and scaling the aggregated rows by the in-degree norms, adding the bias and
  clipping at zero — and leaves the gather along the sources and the sum into the destinations to host operations, as
  the reference does. Block by block each region writes exactly the rows of the reference's whole-array operation
  (`ProjRegion0/2/4`, `PostRegion1/3/5`), so no algebraic law is needed and float finiteness is never used.

  The one difference is the gather: the kernel takes rows in fill mode (an out-of-range source index yields the fill
  value), the reference indexes plainly (an out-of-range index is clamped). Both wrap a negative index by 100000. The
  precondition therefore says, beside finiteness, that every source index lies in -100000 … 99999 — the range in which
  the reference's own indexing is defined; there the fill is never taken (`TakeRows`) and both programs gather the same
  rows. Walking the kernel's boundaries (`Chain`) its result is `Spec.network` of the arguments; the reference's
  composed result term is the same function by unfolding (`RefRes`).
-/
import proofs.«401619_j14130442403926_1_alg».proof.Defs
import proofs.«401619_j14130442403926_1_alg».proof.Proof.Gen.Kernel
import proofs.«401619_j14130442403926_1_alg».proof.Proof.Gen.Kernel.Frame
import proofs.«401619_j14130442403926_1_alg».proof.Proof.Gen.KernelIdeal
import proofs.«401619_j14130442403926_1_alg».proof.Proof.Gen.KernelIdeal.Frame
import proofs.«401619_j14130442403926_1_alg».proof.Proof.Gen.ReferenceIdeal
import proofs.«401619_j14130442403926_1_alg».proof.Proof.Gen.Pre_finite_inputs
import proofs.«401619_j14130442403926_1_alg».proof.Proof.KRun
import proofs.«401619_j14130442403926_1_alg».proof.Proof.RefRun
import proofs.«401619_j14130442403926_1_alg».proof.Proof.RefRes
import proofs.«401619_j14130442403926_1_alg».proof.Proof.Chain
import Idealize.ShloMosaic.Adequacy
import Idealize.ShloMosaic.Init

set_option maxRecDepth 16384

noncomputable section

namespace Cert.Proof

open Idealize.ShloMosaic Idealize.SL.Sem

/-- The word-level kernel terminates without a fault and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RunCopy.run (F := Ideal) m ρ)

/-- From memories agreeing on the arguments both programs end with the network of those arguments as their result. -/
theorem algebraic : Cert.algebraic_KernelIdeal_ReferenceIdeal := by
  intro m ρ m' ρ' hpre hagree
  refine ⟨fun c => Cert.Spec.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result_eq m ρ hpre c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.RunCopy.run (F := Ideal) m' ρ')
    obtain ⟨e0, e1, e2, e3, e4, e5, e6, e7, e8⟩ := hagree c
    rw [Cert.ReferenceIdeal.RefRes.res_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
